-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1x1024 : Shape := ⟨3, ![64, 1, 1024]⟩
abbrev S100000x1024 : Shape := ⟨2, ![100000, 1024]⟩
abbrev S_ : Shape := ⟨0, ![]⟩

class Facts : Prop where
  bcast_S_S64x1x1024 : S_.BroadcastsInDim S64x1x1024 (![] : Fin 0 → Fin S64x1x1024.rank)
  reducesTo_S64x1x1024_S_d0_1_2 : S64x1x1024.ReducesTo [0, 1, 2] S_
  h_S_ : 0 < S_.numel
  bcast_S_S100000x1024 : S_.BroadcastsInDim S100000x1024 (![] : Fin 0 → Fin S100000x1024.rank)
  reducesTo_S100000x1024_S_d0_1 : S100000x1024.ReducesTo [0, 1] S_

variable [Facts]

def fn {F : FTy → Type} [FloatOps F] (main_arg0 : FVec F S64x1x1024 .f32) (main_arg1 : FVec F S100000x1024 .f32) : IVec S_ 1 :=
  let main_v0 : FVec F S64x1x1024 .f32 := Host.absf main_arg0
  let main_cst : FVec F S_ .f32 := constant S_ .f32 0x7F800000#32
  let main_v1 : FVec F S64x1x1024 .f32 := broadcastInDim S64x1x1024 ![] bcast_S_S64x1x1024 main_cst
  let main_v2 : IVec S64x1x1024 1 := cmpf .olt main_v0 main_v1
  let main_c : IVec S_ 1 := constantI S_ 1 1#1
  let main_v3 : IVec S_ 1 := (fun x v => Host.reduce IntOp.andi x v reducesTo_S64x1x1024_S_d0_1_2 h_S_) main_v2 main_c
  let main_v4 : FVec F S100000x1024 .f32 := Host.absf main_arg1
  let main_cst_0 : FVec F S_ .f32 := constant S_ .f32 0x7F800000#32
  let main_v5 : FVec F S100000x1024 .f32 := broadcastInDim S100000x1024 ![] bcast_S_S100000x1024 main_cst_0
  let main_v6 : IVec S100000x1024 1 := cmpf .olt main_v4 main_v5
  let main_c_1 : IVec S_ 1 := constantI S_ 1 1#1
  let main_v7 : IVec S_ 1 := (fun x v => Host.reduce IntOp.andi x v reducesTo_S100000x1024_S_d0_1 h_S_) main_v6 main_c_1
  let main_v8 : IVec S_ 1 := andi main_v3 main_v7
  main_v8
-- ==== Kernel.lean ====
abbrev S64x1x1024 : Shape := ⟨3, ![64, 1, 1024]⟩
abbrev S100000x1024 : Shape := ⟨2, ![100000, 1024]⟩
abbrev S64x1x100000 : Shape := ⟨3, ![64, 1, 100000]⟩
abbrev S1024x1024 : Shape := ⟨2, ![1024, 1024]⟩
abbrev S64x1x4096 : Shape := ⟨3, ![64, 1, 4096]⟩
abbrev S64x1024 : Shape := ⟨2, ![64, 1024]⟩

abbrev nBuf : Space → Nat
  | .hbm => 3
  | .vmem => 11
  | .smem => 0
  | _ => 0

abbrev bufTy : (tb : Table) → Fin (tcTables nBuf tb) → BufTy
  | .hbm, ⟨0, _⟩ => ⟨S64x1x1024, .f32⟩
  | .hbm, ⟨1, _⟩ => ⟨S100000x1024, .f32⟩
  | .hbm, ⟨2, _⟩ => ⟨S64x1x100000, .f32⟩
  | .local _ .vmem, ⟨0, _⟩ => ⟨S64x1x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S64x1x4096, .f32⟩
  | .local _ .vmem, ⟨10, _⟩ => ⟨S64x1x4096, .f32⟩
  | _, _ => ⟨S64x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![25], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c4_i32 : BitVec 32 := 4#32
  let v0 : BitVec 32 := Scalar.muli arg0 c4_i32
  let c0_i32 : BitVec 32 := 0#32
  let v1 : BitVec 32 := Scalar.addi v0 c0_i32
  let c97_i32 : BitVec 32 := 97#32
  let v2 : BitVec 32 := Scalar.minsi v1 c97_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.addi v0 c1_i32
  let c97_i32 : BitVec 32 := 97#32
  let v2 : BitVec 32 := Scalar.minsi v1 c97_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c4_i32 : BitVec 32 := 4#32
  let v0 : BitVec 32 := Scalar.muli arg0 c4_i32
  let c2_i32 : BitVec 32 := 2#32
  let v1 : BitVec 32 := Scalar.addi v0 c2_i32
  let c97_i32 : BitVec 32 := 97#32
  let v2 : BitVec 32 := Scalar.minsi v1 c97_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c4_i32 : BitVec 32 := 4#32
  let v0 : BitVec 32 := Scalar.muli arg0 c4_i32
  let c3_i32 : BitVec 32 := 3#32
  let v1 : BitVec 32 := Scalar.addi v0 c3_i32
  let c97_i32 : BitVec 32 := 97#32
  let v2 : BitVec 32 := Scalar.minsi v1 c97_i32
  let c0_i32 : BitVec 32 := 0#32
  let c0_i32_0 : BitVec 32 := 0#32
  ![v2.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S64x1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S64x1x1024_S64x1x1024_0_0_0 : ∀ a, (![0, 0, 0] : Fin 3 → Nat) a + S64x1x1024.size a ≤ S64x1x1024.size a
  h_S64x1x1024 : 0 < S64x1x1024.numel
  shapeCasts_S64x1x1024_S64x1024 : S64x1x1024.ShapeCasts S64x1024
  inb_S1024x1024_S1024x1024_0_0 : ∀ a, (![0, 0] : Fin 2 → Nat) a + S1024x1024.size a ≤ S1024x1024.size a
  h_S1024x1024 : 0 < S1024x1024.numel
  inb_S64x1x4096_S64x1x1024_0_0_0 : ∀ a, (![0, 0, 0] : Fin 3 → Nat) a + S64x1x1024.size a ≤ S64x1x4096.size a
  shapeCasts_S64x1024_S64x1x1024 : S64x1024.ShapeCasts S64x1x1024
  inb_S64x1x4096_S64x1x1024_0_0_1024 : ∀ a, (![0, 0, 1024] : Fin 3 → Nat) a + S64x1x1024.size a ≤ S64x1x4096.size a
  inb_S64x1x4096_S64x1x1024_0_0_2048 : ∀ a, (![0, 0, 2048] : Fin 3 → Nat) a + S64x1x1024.size a ≤ S64x1x4096.size a
  inb_S64x1x4096_S64x1x1024_0_0_3072 : ∀ a, (![0, 0, 3072] : Fin 3 → Nat) a + S64x1x1024.size a ≤ S64x1x4096.size a
  dot_S64x1024_S1024x1024_S64x1024_1_1_0_0_n_n_wf : DotDims.WF S64x1024 S1024x1024 S64x1024 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x1x1024.size a ≤ S64x1x1024.size a
  hwx0_0 : ∀ i : grid0.Coords, EltTy.bits .f32 = 32 ∨ (Rect.block (s := S64x1x1024) S64x1x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1024x1024.size a < S100000x1024.size a
  hwx0_1 : ∀ i : grid0.Coords, EltTy.bits .f32 = 32 ∨ (Rect.unit (s := S100000x1024) (fun a => cc0_transform_1 i a * S1024x1024.size a) (fun a => (Pipeline.Clip.of (cc0_transform_1 i a) (S1024x1024.size a) (S100000x1024.size a)).extent (S1024x1024.size a)) fun a => Pipeline.Clip.inb (Pipeline.Clip.ok_of (hstart0_1 i a))).WholeWords (EltTy.packing .f32)
  hwxs0_1 : ∀ i : grid0.Coords, EltTy.bits .f32 = 32 ∨ (Rect.unit (s := S1024x1024) (fun _ => 0) (fun a => (Pipeline.Clip.of (cc0_transform_1 i a) (S1024x1024.size a) (S100000x1024.size a)).extent (S1024x1024.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1024x1024.size a < S100000x1024.size a
  hwx0_2 : ∀ i : grid0.Coords, EltTy.bits .f32 = 32 ∨ (Rect.unit (s := S100000x1024) (fun a => cc0_transform_2 i a * S1024x1024.size a) (fun a => (Pipeline.Clip.of (cc0_transform_2 i a) (S1024x1024.size a) (S100000x1024.size a)).extent (S1024x1024.size a)) fun a => Pipeline.Clip.inb (Pipeline.Clip.ok_of (hstart0_2 i a))).WholeWords (EltTy.packing .f32)
  hwxs0_2 : ∀ i : grid0.Coords, EltTy.bits .f32 = 32 ∨ (Rect.unit (s := S1024x1024) (fun _ => 0) (fun a => (Pipeline.Clip.of (cc0_transform_2 i a) (S1024x1024.size a) (S100000x1024.size a)).extent (S1024x1024.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1024x1024.size a < S100000x1024.size a
  hwx0_3 : ∀ i : grid0.Coords, EltTy.bits .f32 = 32 ∨ (Rect.unit (s := S100000x1024) (fun a => cc0_transform_3 i a * S1024x1024.size a) (fun a => (Pipeline.Clip.of (cc0_transform_3 i a) (S1024x1024.size a) (S100000x1024.size a)).extent (S1024x1024.size a)) fun a => Pipeline.Clip.inb (Pipeline.Clip.ok_of (hstart0_3 i a))).WholeWords (EltTy.packing .f32)
  hwxs0_3 : ∀ i : grid0.Coords, EltTy.bits .f32 = 32 ∨ (Rect.unit (s := S1024x1024) (fun _ => 0) (fun a => (Pipeline.Clip.of (cc0_transform_3 i a) (S1024x1024.size a) (S100000x1024.size a)).extent (S1024x1024.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S1024x1024.size a < S100000x1024.size a
  hwx0_4 : ∀ i : grid0.Coords, EltTy.bits .f32 = 32 ∨ (Rect.unit (s := S100000x1024) (fun a => cc0_transform_4 i a * S1024x1024.size a) (fun a => (Pipeline.Clip.of (cc0_transform_4 i a) (S1024x1024.size a) (S100000x1024.size a)).extent (S1024x1024.size a)) fun a => Pipeline.Clip.inb (Pipeline.Clip.ok_of (hstart0_4 i a))).WholeWords (EltTy.packing .f32)
  hwxs0_4 : ∀ i : grid0.Coords, EltTy.bits .f32 = 32 ∨ (Rect.unit (s := S1024x1024) (fun _ => 0) (fun a => (Pipeline.Clip.of (cc0_transform_4 i a) (S1024x1024.size a) (S100000x1024.size a)).extent (S1024x1024.size a)) fun a => (Nat.zero_add _).trans_le (Pipeline.Clip.extent_le (Pipeline.Clip.ok_of (hstart0_4 i a)))).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S64x1x4096.size a < S64x1x100000.size a
  hwx0_5 : ∀ i : grid0.Coords, EltTy.bits .f32 = 32 ∨ (Rect.unit (s := S64x1x100000) (fun a => cc0_transform_5 i a * S64x1x4096.size a) (fun a => (Pipeline.Clip.of (cc0_transform_5 i a) (S64x1x4096.size a) (S64x1x100000.size a)).extent (S64x1x4096.size a)) fun a => Pipeline.Clip.inb (Pipeline.Clip.ok_of (hstart0_5 i a))).WholeWords (EltTy.packing .f32)
  hwxs0_5 : ∀ i : grid0.Coords, EltTy.bits .f32 = 32 ∨ (Rect.unit (s := S64x1x4096) (fun _ => 0) (fun a => (Pipeline.Clip.of (cc0_transform_5 i a) (S64x1x4096.size a) (S64x1x100000.size a)).extent (S64x1x4096.size a)) fun a => (Nat.zero_add _).trans_le (Pipeline.Clip.extent_le (Pipeline.Clip.ok_of (hstart0_5 i a)))).WholeWords (EltTy.packing .f32)

variable [Facts₀]

def dot_S64x1024_S1024x1024_S64x1024_1_1_0_0_n_n : DotDims S64x1024 S1024x1024 S64x1024 where
  lhsContracting := [1]
  rhsContracting := [1]
  lhsNonContracting := [0]
  rhsNonContracting := [0]
  lhsBatch := []
  rhsBatch := []
  wf := dot_S64x1024_S1024x1024_S64x1024_1_1_0_0_n_n_wf

abbrev win0_0 : Pipeline.Window sig grid0 :=
  Pipeline.Window.ofSpec (Memref.whole main_arg0) S64x1x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S1024x1024.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_arg1) S1024x1024.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_arg1) S1024x1024.size cc0_transform_3 reads0_3 false false 2 stage0_3 sem0_3
    hrank0 hreads0_3 hstart0_3 nbuf0_3 (Memref.isWhole_whole _) hwx0_3 hwxs0_3 hstage0_3

abbrev win0_4 : Pipeline.Window sig grid0 :=
  Pipeline.Window.ofSpecClip (Memref.whole main_arg1) S1024x1024.size cc0_transform_4 reads0_4 false false 2 stage0_4 sem0_4
    hrank0 hreads0_4 hstart0_4 nbuf0_4 (Memref.isWhole_whole _) hwx0_4 hwxs0_4 hstage0_4

abbrev win0_5 : Pipeline.Window sig grid0 :=
  Pipeline.Window.ofSpecClip (Memref.whole main_v0) S64x1x4096.size cc0_transform_5 reads0_5 true false 2 stage0_5 sem0_5
    hrank0 hreads0_5 hstart0_5 nbuf0_5 (Memref.isWhole_whole _) hwx0_5 hwxs0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x1x1024 : Shape := ⟨3, ![64, 1, 1024]⟩
abbrev S100000x1024 : Shape := ⟨2, ![100000, 1024]⟩
abbrev S64x1x100000 : Shape := ⟨3, ![64, 1, 100000]⟩

abbrev nBuf : Space → Nat
  | .hbm => 3
  | .vmem => 0
  | .smem => 0
  | _ => 0

abbrev bufTy : (tb : Table) → Fin (tcTables nBuf tb) → BufTy
  | .hbm, ⟨0, _⟩ => ⟨S64x1x1024, .f32⟩
  | .hbm, ⟨1, _⟩ => ⟨S100000x1024, .f32⟩
  | .hbm, ⟨2, _⟩ => ⟨S64x1x100000, .f32⟩
  | _, _ => ⟨S64x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S64x1x1024_S100000x1024_S64x1x100000_2_1_01_0_n_n_wf : DotDims.WF S64x1x1024 S100000x1024 S64x1x100000 [2] [1] [0, 1] [0] [] []

variable [Facts₀]

def dot_S64x1x1024_S100000x1024_S64x1x100000_2_1_01_0_n_n : DotDims S64x1x1024 S100000x1024 S64x1x100000 where
  lhsContracting := [2]
  rhsContracting := [1]
  lhsNonContracting := [0, 1]
  rhsNonContracting := [0]
  lhsBatch := []
  rhsBatch := []
  wf := dot_S64x1x1024_S100000x1024_S64x1x100000_2_1_01_0_n_n_wf

class Facts : Prop extends Facts₀ where

variable [Facts]
-- ==== Proof.Body.lean ====
/-
  The kernel body, once: on whole staging buffers — the activations' block, four blocks of the weight table and the
  result's block — it loads the activations, and for each of the four weight blocks in turn multiplies the
  activations by the block's transpose and stores the 64 × 1024 product into the matching quarter of the result's
  4096 columns. The inputs' buffers are left as found; the result's buffer ends as the four stores laid over it,
  which cover it, so nothing of what it held before is left.
-/
import proofs.«165080_g29180007809632_cont_9to1_400_6_alg».proof.Proof.Gen.KernelIdeal.Launch
import proofs.«165080_g29180007809632_cont_9to1_400_6_alg».proof.Proof.Gen.KernelIdeal.Skeleton
import proofs.«165080_g29180007809632_cont_9to1_400_6_alg».proof.Proof.Gen.KernelIdeal.Points
import Idealize.ShloMosaic.Lib.Pipeline.FrameBody
import Idealize.ShloMosaic.Lib.Pipeline.Kit
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

/-- The whole activations' buffer, a whole weight block's buffer, and the four quarters (columns
    `1024 k ‥ 1024 k + 1023`) of the result's buffer. -/
abbrev rX : Rect S64x1x1024 := Rect.unit (s := S64x1x1024) ![0, 0, 0] S64x1x1024.size inb_S64x1x1024_S64x1x1024_0_0_0
abbrev rW : Rect S1024x1024 := Rect.unit (s := S1024x1024) ![0, 0] S1024x1024.size inb_S1024x1024_S1024x1024_0_0
abbrev rO0 : Rect S64x1x4096 := Rect.unit (s := S64x1x4096) ![0, 0, 0] S64x1x1024.size inb_S64x1x4096_S64x1x1024_0_0_0
abbrev rO1 : Rect S64x1x4096 := Rect.unit (s := S64x1x4096) ![0, 0, 1024] S64x1x1024.size inb_S64x1x4096_S64x1x1024_0_0_1024
abbrev rO2 : Rect S64x1x4096 := Rect.unit (s := S64x1x4096) ![0, 0, 2048] S64x1x1024.size inb_S64x1x4096_S64x1x1024_0_0_2048
abbrev rO3 : Rect S64x1x4096 := Rect.unit (s := S64x1x4096) ![0, 0, 3072] S64x1x1024.size inb_S64x1x4096_S64x1x1024_0_0_3072

/-! ## What the body leaves in the result's buffer -/

/-- The result's buffer after the body, from what the five input buffers hold: its four stores as pieces, the last
    first; quarter `k` is the product of the activations with the transpose of weight block `k`. -/
def outFn (x : Vec F S64x1x1024 .f32) (w0 w1 w2 w3 : Vec F S1024x1024 .f32) : Vec F S64x1x4096 .f32 :=
  View.canon [⟨rO3, k0_pay5 (View.ld x rX) (View.ld w3 rW)⟩, ⟨rO2, k0_pay4 (View.ld x rX) (View.ld w2 rW)⟩,
    ⟨rO1, k0_pay3 (View.ld x rX) (View.ld w1 rW)⟩, ⟨rO0, k0_pay2 (View.ld x rX) (View.ld w0 rW)⟩]

/-- The four quarters tile the result's buffer, so the stores cover it. -/
theorem outCover (p3 p2 p1 p0 : Vec F S64x1x1024 .f32) (y : S64x1x4096.Idx) :
    ∃ pc ∈ ([⟨rO3, p3⟩, ⟨rO2, p2⟩, ⟨rO1, p1⟩, ⟨rO0, p0⟩] : List (View.Piece (Elt F) S64x1x4096 .f32)), y ∈ pc.1.set :=
  View.cover_of_tiled [⟨rO3, p3⟩, ⟨rO2, p2⟩, ⟨rO1, p1⟩, ⟨rO0, p0⟩] S64x1x1024.size (by rfl) y

/-! ## The body's triple -/

set_option maxHeartbeats 1000000 in
/-- The kernel body on whole staging memrefs, the five inputs' at contents `x`, `w0 … w3` and the result's at
    anything, runs to the continuation holding the inputs' as they were and the result's at `outFn` of the inputs'. -/
theorem sound_kernel (c : Dev nD) (E : Set ℕ) (i : grid0.Coords)
    (a1 : Memref sig .tc .vmem S64x1x1024 .f32) (h1 : a1.IsWhole)
    (a2 : Memref sig .tc .vmem S1024x1024 .f32) (h2 : a2.IsWhole) (a3 : Memref sig .tc .vmem S1024x1024 .f32) (h3 : a3.IsWhole)
    (a4 : Memref sig .tc .vmem S1024x1024 .f32) (h4 : a4.IsWhole) (a5 : Memref sig .tc .vmem S1024x1024 .f32) (h5 : a5.IsWhole)
    (a6 : Memref sig .tc .vmem S64x1x4096 .f32) (h6 : a6.IsWhole)
    (x : Vec F S64x1x1024 .f32) (w0 w1 w2 w3 : Vec F S1024x1024 .f32) (K : PUnit → sProp 𝕄) :
    iprop(owns (c : Thread nD τ) a1 fullShare x ∗ owns (c : Thread nD τ) a2 fullShare w0 ∗ owns (c : Thread nD τ) a3 fullShare w1
        ∗ owns (c : Thread nD τ) a4 fullShare w2 ∗ owns (c : Thread nD τ) a5 fullShare w3 ∗ (∃ d, owns (c : Thread nD τ) a6 fullShare d)
        ∗ (iprop(owns (c : Thread nD τ) a1 fullShare x ∗ owns (c : Thread nD τ) a2 fullShare w0 ∗ owns (c : Thread nD τ) a3 fullShare w1
            ∗ owns (c : Thread nD τ) a4 fullShare w2 ∗ owns (c : Thread nD τ) a5 fullShare w3
            ∗ owns (c : Thread nD τ) a6 fullShare (outFn x w0 w1 w2 w3)) -∗ K ⟨⟩))
      ⊢ wp frame (wpE (defs₀ (F := F)) Variants.none c none) E (cc0__mm_kernel i a1 h1 a2 h2 a3 h3 a4 h4 a5 h5 a6 h6) K := by
  simp only [cc0__mm_kernel_eq_skeleton]; unfold cc0__mm_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (outCover _ _ _ _)

end Cert.KernelIdeal.Hand

end
-- ==== Proof.BodyValue.lean ====
/-
  The result's block after the kernel body, read at an index. The block's 4096 columns are four quarters; the body
  stores into quarter k the product of the activations (viewed as a 64 × 1024 matrix) with the transpose of weight
  block k, computed into a zero accumulator. At the ideal values that product is a plain finite sum, so column
  1024 k + r of row b of the block is the inner product of the activations' row b with row r of weight block k.
-/
import proofs.«165080_g29180007809632_cont_9to1_400_6_alg».proof.Proof.Body
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe
open Idealize.ShloMosaic.ValueIdx
open Idealize.SL.Sem

/-! ## The product of the activations with a weight block's transpose, at an index -/

theorem lhs_mm_0 (i : S64x1024.Idx) (q : dot_S64x1024_S1024x1024_S64x1024_1_1_0_0_n_n.contr.Idx) :
    (dot_S64x1024_S1024x1024_S64x1024_1_1_0_0_n_n.lhsIdx i q 0).val = (i 0).val := by
  unfold DotDims.lhsIdx
  rw [dif_neg (show ¬(0 : Fin S64x1024.rank) ∈ dot_S64x1024_S1024x1024_S64x1024_1_1_0_0_n_n.lhsBatch by decide), dif_pos (show (0 : Fin S64x1024.rank) ∈ dot_S64x1024_S1024x1024_S64x1024_1_1_0_0_n_n.lhsNonContracting by decide)]
  rfl
theorem lhs_mm_1 (i : S64x1024.Idx) (q : dot_S64x1024_S1024x1024_S64x1024_1_1_0_0_n_n.contr.Idx) :
    (dot_S64x1024_S1024x1024_S64x1024_1_1_0_0_n_n.lhsIdx i q 1).val = (q ⟨0, by decide⟩).val :=
  dot_S64x1024_S1024x1024_S64x1024_1_1_0_0_n_n.lhsIdx_val_of_single rfl i q
theorem rhs_mm_0 (i : S64x1024.Idx) (q : dot_S64x1024_S1024x1024_S64x1024_1_1_0_0_n_n.contr.Idx) :
    (dot_S64x1024_S1024x1024_S64x1024_1_1_0_0_n_n.rhsIdx i q 0).val = (i 1).val := by
  unfold DotDims.rhsIdx
  rw [dif_neg (show ¬(0 : Fin S1024x1024.rank) ∈ dot_S64x1024_S1024x1024_S64x1024_1_1_0_0_n_n.rhsBatch by decide), dif_pos (show (0 : Fin S1024x1024.rank) ∈ dot_S64x1024_S1024x1024_S64x1024_1_1_0_0_n_n.rhsNonContracting by decide)]
  rfl
theorem rhs_mm_1 (i : S64x1024.Idx) (q : dot_S64x1024_S1024x1024_S64x1024_1_1_0_0_n_n.contr.Idx) :
    (dot_S64x1024_S1024x1024_S64x1024_1_1_0_0_n_n.rhsIdx i q 1).val = (q ⟨0, by decide⟩).val :=
  dot_S64x1024_S1024x1024_S64x1024_1_1_0_0_n_n.rhsIdx_val_of_single rfl i q

/-- Into a zero accumulator, entry (p, r) of the product is the inner product of row p of the left operand with
    row r of the right one (both operands are contracted along their second axis). -/
theorem matmul_zero_apply (a : FVec Ideal S64x1024 .f32) (w : FVec Ideal S1024x1024 .f32) (p : Fin 64) (r : Fin 1024) :
    matmul (F := Ideal) dot_S64x1024_S1024x1024_S64x1024_1_1_0_0_n_n none a w (constant (F := Ideal) S64x1024 .f32 0x00000000#32) (ix2 p r)
      = ∑ h : Fin 1024, a (ix2 p h) * w (ix2 r h) := by
  simp only [matmul]
  rw [Ideal.matmul_constant_zero_apply, ← Equiv.sum_comp (ValueIdx.contrEquiv1 dot_S64x1024_S1024x1024_S64x1024_1_1_0_0_n_n 1024 rfl rfl).symm]
  refine Finset.sum_congr rfl fun k _ => ?_
  have hk := ValueIdx.contrEquiv1_symm_val dot_S64x1024_S1024x1024_S64x1024_1_1_0_0_n_n 1024 rfl rfl k
  have el : dot_S64x1024_S1024x1024_S64x1024_1_1_0_0_n_n.lhsIdx (ix2 p r) ((ValueIdx.contrEquiv1 dot_S64x1024_S1024x1024_S64x1024_1_1_0_0_n_n 1024 rfl rfl).symm k) = ix2 p k := funext fun a => Fin.ext (by
    match a with
    | ⟨0, _⟩ => exact lhs_mm_0 _ _
    | ⟨1, _⟩ => exact (lhs_mm_1 _ _).trans hk)
  have er : dot_S64x1024_S1024x1024_S64x1024_1_1_0_0_n_n.rhsIdx (ix2 p r) ((ValueIdx.contrEquiv1 dot_S64x1024_S1024x1024_S64x1024_1_1_0_0_n_n 1024 rfl rfl).symm k) = ix2 r k := funext fun a => Fin.ext (by
    match a with
    | ⟨0, _⟩ => exact rhs_mm_0 _ _
    | ⟨1, _⟩ => exact (rhs_mm_1 _ _).trans hk)
  rw [el, er]

/-! ## A quarter's payload at an index -/

/-- The activations' block viewed as a 64 × 1024 matrix: entry (b, h) is the block's (b, 0, h). -/
theorem pay1_apply (x : Vec Ideal S64x1x1024 .f32) (b : Fin 64) (h : Fin 1024) :
    k0_pay1 (F := Ideal) x (ix2 b h) = x (ix3 b (0 : Fin 1) h) := by
  unfold k0_pay1
  exact shapeCast_apply x _ _ _ (by
    rw [Shape.rowMajor_val_three, Shape.rowMajor_val_two]
    show (b.val * 1 + 0) * 1024 + h.val = b.val * 1024 + h.val
    omega)

/-- The product with a weight block's transpose, viewed back as 64 × 1 × 1024: entry (b, u, r) is the inner product
    of the activations' row b with the block's row r. -/
theorem quarter_apply (x : Vec Ideal S64x1x1024 .f32) (w : FVec Ideal S1024x1024 .f32) (b : Fin 64) (u : Fin 1) (r : Fin 1024) :
    shapeCast S64x1x1024 (matmul (F := Ideal) dot_S64x1024_S1024x1024_S64x1024_1_1_0_0_n_n none (k0_pay1 (F := Ideal) x) w
        (constant (F := Ideal) S64x1024 .f32 0x00000000#32)) shapeCasts_S64x1024_S64x1x1024 (ix3 b u r)
      = ∑ h : Fin 1024, x (ix3 b (0 : Fin 1) h) * w (ix2 r h) := by
  refine (shapeCast_apply _ _ (ix3 b u r) (ix2 b r) (by
    have hu : u.val = 0 := by omega
    rw [Shape.rowMajor_val_three, Shape.rowMajor_val_two]
    show b.val * 1024 + r.val = (b.val * 1 + u.val) * 1024 + r.val
    rw [hu]; omega)).trans ?_
  refine (matmul_zero_apply _ w b r).trans ?_
  exact Finset.sum_congr rfl fun h _ => congrArg (· * w (ix2 r h)) (pay1_apply x b h)

theorem pay2_apply (x : Vec Ideal S64x1x1024 .f32) (w : Vec Ideal S1024x1024 .f32) (b : Fin 64) (u : Fin 1) (r : Fin 1024) :
    k0_pay2 (F := Ideal) x w (ix3 b u r) = ∑ h : Fin 1024, x (ix3 b (0 : Fin 1) h) * w (ix2 r h) := by
  unfold k0_pay2; exact quarter_apply x w b u r
theorem pay3_apply (x : Vec Ideal S64x1x1024 .f32) (w : Vec Ideal S1024x1024 .f32) (b : Fin 64) (u : Fin 1) (r : Fin 1024) :
    k0_pay3 (F := Ideal) x w (ix3 b u r) = ∑ h : Fin 1024, x (ix3 b (0 : Fin 1) h) * w (ix2 r h) := by
  unfold k0_pay3; exact quarter_apply x w b u r
theorem pay4_apply (x : Vec Ideal S64x1x1024 .f32) (w : Vec Ideal S1024x1024 .f32) (b : Fin 64) (u : Fin 1) (r : Fin 1024) :
    k0_pay4 (F := Ideal) x w (ix3 b u r) = ∑ h : Fin 1024, x (ix3 b (0 : Fin 1) h) * w (ix2 r h) := by
  unfold k0_pay4; exact quarter_apply x w b u r
theorem pay5_apply (x : Vec Ideal S64x1x1024 .f32) (w : Vec Ideal S1024x1024 .f32) (b : Fin 64) (u : Fin 1) (r : Fin 1024) :
    k0_pay5 (F := Ideal) x w (ix3 b u r) = ∑ h : Fin 1024, x (ix3 b (0 : Fin 1) h) * w (ix2 r h) := by
  unfold k0_pay5; exact quarter_apply x w b u r

/-! ## The result's buffer at an index -/

theorem hz3 : (![0, 0, 0] : Fin 3 → Nat) = fun _ => 0 := funext fun a => by fin_cases a <;> rfl
theorem hz2 : (![0, 0] : Fin 2 → Nat) = fun _ => 0 := funext fun a => by fin_cases a <;> rfl

section Quarters
variable {F : FTy → Type} [FloatOps F]

/-- An index whose column lies outside columns `o ‥ o + 1023` is not in that quarter. -/
theorem not_mem_quarter {o : Nat} {inb : ∀ a, (![0, 0, o] : Fin 3 → Nat) a + S64x1x1024.size a ≤ S64x1x4096.size a}
    (y : S64x1x4096.Idx) (h : (y 2).val < o ∨ o + 1024 ≤ (y 2).val) :
    y ∉ (Rect.unit (s := S64x1x4096) ![0, 0, o] S64x1x1024.size inb).set := by
  rw [Rect.mem_set_unit]; intro hm
  have h2 := hm 2
  change o ≤ (y 2).val ∧ (y 2).val < o + 1024 at h2
  omega

/-- Index (b, 0, o + r) of the result's buffer is the quarter's own index (b, 0, r) placed in the buffer. -/
theorem emb_quarter {o : Nat} {inb : ∀ a, (![0, 0, o] : Fin 3 → Nat) a + S64x1x1024.size a ≤ S64x1x4096.size a}
    (b : Fin 64) (r : Fin 1024) (c : Fin 4096) (hc : c.val = o + r.val) :
    (ix3 b (0 : Fin 1) c : S64x1x4096.Idx)
      = (Rect.unit (s := S64x1x4096) ![0, 0, o] S64x1x1024.size inb).emb (ix3 b (0 : Fin 1) r) :=
  funext fun a => Fin.ext (by
    match a with
    | ⟨0, _⟩ => show b.val = 0 + 1 * b.val; omega
    | ⟨1, _⟩ => show 0 = 0 + 1 * 0; rfl
    | ⟨2, _⟩ => show c.val = o + 1 * r.val; omega)

theorem canon_q3 (p3 p2 p1 p0 : Vec F S64x1x1024 .f32) (b : Fin 64) (r : Fin 1024) :
    View.canon ([⟨rO3, p3⟩, ⟨rO2, p2⟩, ⟨rO1, p1⟩, ⟨rO0, p0⟩] : List (View.Piece (Elt F) S64x1x4096 .f32))
        (ix3 b (0 : Fin 1) (⟨3072 + r.val, by omega⟩ : Fin 4096)) = p3 (ix3 b (0 : Fin 1) r) :=
  (congrArg _ (emb_quarter b r _ rfl)).trans (View.canon_cons_emb rO3 p3 _ _)

theorem canon_q2 (p3 p2 p1 p0 : Vec F S64x1x1024 .f32) (b : Fin 64) (r : Fin 1024) :
    View.canon ([⟨rO3, p3⟩, ⟨rO2, p2⟩, ⟨rO1, p1⟩, ⟨rO0, p0⟩] : List (View.Piece (Elt F) S64x1x4096 .f32))
        (ix3 b (0 : Fin 1) (⟨2048 + r.val, by omega⟩ : Fin 4096)) = p2 (ix3 b (0 : Fin 1) r) := by
  have n3 : (ix3 b (0 : Fin 1) (⟨2048 + r.val, by omega⟩ : Fin 4096) : S64x1x4096.Idx) ∉ rO3.set :=
    not_mem_quarter (o := 3072) _ (Or.inl (by show 2048 + r.val < 3072; omega))
  refine (View.canon_cons_of_not_mem ⟨rO3, p3⟩ _ n3).trans ?_
  exact (congrArg _ (emb_quarter b r _ rfl)).trans (View.canon_cons_emb rO2 p2 _ _)

theorem canon_q1 (p3 p2 p1 p0 : Vec F S64x1x1024 .f32) (b : Fin 64) (r : Fin 1024) :
    View.canon ([⟨rO3, p3⟩, ⟨rO2, p2⟩, ⟨rO1, p1⟩, ⟨rO0, p0⟩] : List (View.Piece (Elt F) S64x1x4096 .f32))
        (ix3 b (0 : Fin 1) (⟨1024 + r.val, by omega⟩ : Fin 4096)) = p1 (ix3 b (0 : Fin 1) r) := by
  have n3 : (ix3 b (0 : Fin 1) (⟨1024 + r.val, by omega⟩ : Fin 4096) : S64x1x4096.Idx) ∉ rO3.set :=
    not_mem_quarter (o := 3072) _ (Or.inl (by show 1024 + r.val < 3072; omega))
  have n2 : (ix3 b (0 : Fin 1) (⟨1024 + r.val, by omega⟩ : Fin 4096) : S64x1x4096.Idx) ∉ rO2.set :=
    not_mem_quarter (o := 2048) _ (Or.inl (by show 1024 + r.val < 2048; omega))
  refine (View.canon_cons_of_not_mem ⟨rO3, p3⟩ _ n3).trans ?_
  refine (View.canon_cons_of_not_mem ⟨rO2, p2⟩ _ n2).trans ?_
  exact (congrArg _ (emb_quarter b r _ rfl)).trans (View.canon_cons_emb rO1 p1 _ _)

theorem canon_q0 (p3 p2 p1 p0 : Vec F S64x1x1024 .f32) (b : Fin 64) (r : Fin 1024) :
    View.canon ([⟨rO3, p3⟩, ⟨rO2, p2⟩, ⟨rO1, p1⟩, ⟨rO0, p0⟩] : List (View.Piece (Elt F) S64x1x4096 .f32))
        (ix3 b (0 : Fin 1) (⟨r.val, by omega⟩ : Fin 4096)) = p0 (ix3 b (0 : Fin 1) r) := by
  have n3 : (ix3 b (0 : Fin 1) (⟨r.val, by omega⟩ : Fin 4096) : S64x1x4096.Idx) ∉ rO3.set :=
    not_mem_quarter (o := 3072) _ (Or.inl (by show r.val < 3072; omega))
  have n2 : (ix3 b (0 : Fin 1) (⟨r.val, by omega⟩ : Fin 4096) : S64x1x4096.Idx) ∉ rO2.set :=
    not_mem_quarter (o := 2048) _ (Or.inl (by show r.val < 2048; omega))
  have n1 : (ix3 b (0 : Fin 1) (⟨r.val, by omega⟩ : Fin 4096) : S64x1x4096.Idx) ∉ rO1.set :=
    not_mem_quarter (o := 1024) _ (Or.inl (by show r.val < 1024; omega))
  refine (View.canon_cons_of_not_mem ⟨rO3, p3⟩ _ n3).trans ?_
  refine (View.canon_cons_of_not_mem ⟨rO2, p2⟩ _ n2).trans ?_
  refine (View.canon_cons_of_not_mem ⟨rO1, p1⟩ _ n1).trans ?_
  exact (congrArg _ (emb_quarter b r _ (by show r.val = 0 + r.val; omega))).trans (View.canon_cons_emb rO0 p0 _ _)

end Quarters

/-- A load through the whole rectangle reads the contents. -/
theorem ld_x (x : Vec Ideal S64x1x1024 .f32) : View.ld x rX = x :=
  View.ld_unit_zero (S := S64x1x1024) hz3 inb_S64x1x1024_S64x1x1024_0_0_0 x
theorem ld_w (w : Vec Ideal S1024x1024 .f32) : View.ld w rW = w :=
  View.ld_unit_zero (S := S1024x1024) hz2 inb_S1024x1024_S1024x1024_0_0 w

/-- Column r of the first quarter of the result's buffer: the inner product of the activations' row with row r of the
    first weight block. -/
theorem outFn_apply0 (x : Vec Ideal S64x1x1024 .f32) (w0 w1 w2 w3 : Vec Ideal S1024x1024 .f32) (b : Fin 64) (r : Fin 1024) :
    outFn (F := Ideal) x w0 w1 w2 w3 (ix3 b (0 : Fin 1) (⟨r.val, by omega⟩ : Fin 4096))
      = ∑ h : Fin 1024, x (ix3 b (0 : Fin 1) h) * w0 (ix2 r h) := by
  unfold outFn
  refine (canon_q0 _ _ _ _ b r).trans ?_
  exact (congrArg₂ (fun a c => k0_pay2 (F := Ideal) a c (ix3 b (0 : Fin 1) r)) (ld_x x) (ld_w w0)).trans
    (pay2_apply x w0 b 0 r)

/-- Column 1024 + r: the same with the second weight block. -/
theorem outFn_apply1 (x : Vec Ideal S64x1x1024 .f32) (w0 w1 w2 w3 : Vec Ideal S1024x1024 .f32) (b : Fin 64) (r : Fin 1024) :
    outFn (F := Ideal) x w0 w1 w2 w3 (ix3 b (0 : Fin 1) (⟨1024 + r.val, by omega⟩ : Fin 4096))
      = ∑ h : Fin 1024, x (ix3 b (0 : Fin 1) h) * w1 (ix2 r h) := by
  unfold outFn
  refine (canon_q1 _ _ _ _ b r).trans ?_
  exact (congrArg₂ (fun a c => k0_pay3 (F := Ideal) a c (ix3 b (0 : Fin 1) r)) (ld_x x) (ld_w w1)).trans
    (pay3_apply x w1 b 0 r)

/-- Column 2048 + r: the same with the third weight block. -/
theorem outFn_apply2 (x : Vec Ideal S64x1x1024 .f32) (w0 w1 w2 w3 : Vec Ideal S1024x1024 .f32) (b : Fin 64) (r : Fin 1024) :
    outFn (F := Ideal) x w0 w1 w2 w3 (ix3 b (0 : Fin 1) (⟨2048 + r.val, by omega⟩ : Fin 4096))
      = ∑ h : Fin 1024, x (ix3 b (0 : Fin 1) h) * w2 (ix2 r h) := by
  unfold outFn
  refine (canon_q2 _ _ _ _ b r).trans ?_
  exact (congrArg₂ (fun a c => k0_pay4 (F := Ideal) a c (ix3 b (0 : Fin 1) r)) (ld_x x) (ld_w w2)).trans
    (pay4_apply x w2 b 0 r)

/-- Column 3072 + r: the same with the fourth weight block. -/
theorem outFn_apply3 (x : Vec Ideal S64x1x1024 .f32) (w0 w1 w2 w3 : Vec Ideal S1024x1024 .f32) (b : Fin 64) (r : Fin 1024) :
    outFn (F := Ideal) x w0 w1 w2 w3 (ix3 b (0 : Fin 1) (⟨3072 + r.val, by omega⟩ : Fin 4096))
      = ∑ h : Fin 1024, x (ix3 b (0 : Fin 1) h) * w3 (ix2 r h) := by
  unfold outFn
  refine (canon_q3 _ _ _ _ b r).trans ?_
  exact (congrArg₂ (fun a c => k0_pay5 (F := Ideal) a c (ix3 b (0 : Fin 1) r)) (ld_x x) (ld_w w3)).trans
    (pay5_apply x w3 b 0 r)

/-- The same at any unit coordinate `u` and any column `c` of the first quarter, given by its value. -/
theorem outFn_col0 (x : Vec Ideal S64x1x1024 .f32) (w0 w1 w2 w3 : Vec Ideal S1024x1024 .f32) (b : Fin 64) (u : Fin 1)
    (r : Fin 1024) (c : Fin 4096) (hc : c.val = r.val) :
    outFn (F := Ideal) x w0 w1 w2 w3 (ix3 b u c) = ∑ h : Fin 1024, x (ix3 b (0 : Fin 1) h) * w0 (ix2 r h) := by
  obtain rfl : u = 0 := Subsingleton.elim _ _
  have e : c = (⟨r.val, by omega⟩ : Fin 4096) := Fin.ext hc
  exact (congrArg (fun c' => outFn (F := Ideal) x w0 w1 w2 w3 (ix3 b (0 : Fin 1) c')) e).trans
    (outFn_apply0 x w0 w1 w2 w3 b r)

/-- The same at any unit coordinate `u` and any column `c` of the second quarter, given by its value. -/
theorem outFn_col1 (x : Vec Ideal S64x1x1024 .f32) (w0 w1 w2 w3 : Vec Ideal S1024x1024 .f32) (b : Fin 64) (u : Fin 1)
    (r : Fin 1024) (c : Fin 4096) (hc : c.val = 1024 + r.val) :
    outFn (F := Ideal) x w0 w1 w2 w3 (ix3 b u c) = ∑ h : Fin 1024, x (ix3 b (0 : Fin 1) h) * w1 (ix2 r h) := by
  obtain rfl : u = 0 := Subsingleton.elim _ _
  have e : c = (⟨1024 + r.val, by omega⟩ : Fin 4096) := Fin.ext hc
  exact (congrArg (fun c' => outFn (F := Ideal) x w0 w1 w2 w3 (ix3 b (0 : Fin 1) c')) e).trans
    (outFn_apply1 x w0 w1 w2 w3 b r)

/-- The same at any unit coordinate `u` and any column `c` of the third quarter, given by its value. -/
theorem outFn_col2 (x : Vec Ideal S64x1x1024 .f32) (w0 w1 w2 w3 : Vec Ideal S1024x1024 .f32) (b : Fin 64) (u : Fin 1)
    (r : Fin 1024) (c : Fin 4096) (hc : c.val = 2048 + r.val) :
    outFn (F := Ideal) x w0 w1 w2 w3 (ix3 b u c) = ∑ h : Fin 1024, x (ix3 b (0 : Fin 1) h) * w2 (ix2 r h) := by
  obtain rfl : u = 0 := Subsingleton.elim _ _
  have e : c = (⟨2048 + r.val, by omega⟩ : Fin 4096) := Fin.ext hc
  exact (congrArg (fun c' => outFn (F := Ideal) x w0 w1 w2 w3 (ix3 b (0 : Fin 1) c')) e).trans
    (outFn_apply2 x w0 w1 w2 w3 b r)

/-- The same at any unit coordinate `u` and any column `c` of the fourth quarter, given by its value. -/
theorem outFn_col3 (x : Vec Ideal S64x1x1024 .f32) (w0 w1 w2 w3 : Vec Ideal S1024x1024 .f32) (b : Fin 64) (u : Fin 1)
    (r : Fin 1024) (c : Fin 4096) (hc : c.val = 3072 + r.val) :
    outFn (F := Ideal) x w0 w1 w2 w3 (ix3 b u c) = ∑ h : Fin 1024, x (ix3 b (0 : Fin 1) h) * w3 (ix2 r h) := by
  obtain rfl : u = 0 := Subsingleton.elim _ _
  have e : c = (⟨3072 + r.val, by omega⟩ : Fin 4096) := Fin.ext hc
  exact (congrArg (fun c' => outFn (F := Ideal) x w0 w1 w2 w3 (ix3 b (0 : Fin 1) c')) e).trans
    (outFn_apply3 x w0 w1 w2 w3 b r)

end Cert.KernelIdeal.Hand

end
-- ==== Proof.ShareSplit.lean ====
/-
  The weight table is handed to the kernel through four windows. At the region's entry the three distinct buffers
  behind the six windows are each held whole at the full share; the table's full share is split in four quarter
  shares, one per window that reads it, while the activations' window and the result's window hold their buffers
  at the full share.
-/
import proofs.«165080_g29180007809632_cont_9to1_400_6_alg».proof.Proof.Gen.KernelIdeal.Launch
import Idealize.ShloMosaic.Lib.Pipeline.Kit

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The share each window holds its array at: the activations' (window 0) and the result's (window 5) the full
    share, the four windows on the weight table a quarter each. -/
def winShare : Fin 6 → PosShare TreeShare
  | 0 => fullShare
  | 1 => fullShare.left.left
  | 2 => fullShare.left.right
  | 3 => fullShare.right.left
  | 4 => fullShare.right.right
  | 5 => fullShare

/-- The buffers behind the six windows' arrays are three: the activations, the weight table, the result. -/
theorem arrRef_image : Finset.univ.image (Pipeline.arrRef spec0) = {main_arg0, main_arg1, main_v0} := by decide

/-- The distinct buffers behind the windows' arrays, each whole at the full share at contents `V`, give every
    window its array at its share `sh w`, when `sh` is `winShare` (stated by its six values so that it applies
    to any proof data's `share`). -/
theorem arrays_of_arrBufs (c : Dev nD) (V : (b : Ref sig .tc) → Buf (Elt F) ((c.tc : Thread nD τ).loc b))
    (sh : Fin cfg0.W → PosShare TreeShare)
    (h0 : sh 0 = fullShare) (h1 : sh 1 = fullShare.left.left) (h2 : sh 2 = fullShare.left.right)
    (h3 : sh 3 = fullShare.right.left) (h4 : sh 4 = fullShare.right.right) (h5 : sh 5 = fullShare) :
    (Pipeline.arrBufs spec0 c V : sProp 𝕄)
      ⊢ bigSep Finset.univ fun w : Fin cfg0.W =>
          ((cfg0.win w).arr.view.loc (c.tc : Thread nD τ) ↦[(cfg0.win w).arr.view.set]{sh w} V (Pipeline.arrRef spec0 w) : sProp 𝕄) := by
  classical
  -- the left side: the three distinct buffers, conjoined one by one
  unfold Pipeline.arrBufs
  rw [arrRef_image, bigSep_insert (by decide), bigSep_insert (by decide), bigSep_singleton]
  -- the right side: the six windows, conjoined one by one; a whole array's element set is every element
  refine BIBase.Entails.trans ?_ (Entails.of_eq (bigSep_W0 _).symm)
  simp only [View.set_whole, h0, h1, h2, h3, h4, h5]
  change iprop(((c.tc : Thread nD τ).loc main_arg0 ↦{fullShare} V main_arg0)
        ∗ ((c.tc : Thread nD τ).loc main_arg1 ↦{fullShare} V main_arg1)
        ∗ ((c.tc : Thread nD τ).loc main_v0 ↦{fullShare} V main_v0))
      ⊢ iprop(((c.tc : Thread nD τ).loc main_arg0 ↦{fullShare} V main_arg0)
        ∗ ((c.tc : Thread nD τ).loc main_arg1 ↦{fullShare.left.left} V main_arg1)
        ∗ ((c.tc : Thread nD τ).loc main_arg1 ↦{fullShare.left.right} V main_arg1)
        ∗ ((c.tc : Thread nD τ).loc main_arg1 ↦{fullShare.right.left} V main_arg1)
        ∗ ((c.tc : Thread nD τ).loc main_arg1 ↦{fullShare.right.right} V main_arg1)
        ∗ ((c.tc : Thread nD τ).loc main_v0 ↦{fullShare} V main_v0))
  iintro ⟨H0, H1, H5⟩
  -- the table's full share is its two halves, and each half its two halves
  ihave H1' := (pointsTo_share (PosShare.mem_left_op_right fullShare)).1 $$ H1
  icases H1' with ⟨Hl, Hr⟩
  ihave Hl' := (pointsTo_share (PosShare.mem_left_op_right fullShare.left)).1 $$ Hl
  icases Hl' with ⟨Hll, Hlr⟩
  ihave Hr' := (pointsTo_share (PosShare.mem_left_op_right fullShare.right)).1 $$ Hr
  icases Hr' with ⟨Hrl, Hrr⟩
  isplitl [H0]; · iexact H0
  isplitl [Hll]; · iexact Hll
  isplitl [Hlr]; · iexact Hlr
  isplitl [Hrl]; · iexact Hrl
  isplitl [Hrr]; · iexact Hrr
  iexact H5

end Cert.KernelIdeal.Hand

end
-- ==== Proof.Spec.lean ====
/-
  The specification both programs are compared with: the language-model head's logits,
  `logits x W (b, s, v) = ∑ h, x (b, s, h) * W (v, h)`, over the extended reals — each output entry is the
  inner product, along the hidden axis of length 1024, of one row of the activations with one row of the weight table.
  Stated over the literal shapes, index by index; no program is mentioned here.
-/
import Idealize.ShloMosaic.PureOps.Ideal
import Idealize.ShloMosaic.Lib.ValueIdx

noncomputable section

open scoped BigOperators

namespace Cert.Spec

open Idealize.ShloMosaic Idealize.ShloMosaic.ValueIdx

/-- The activations' shape, the weight table's and the logits'. -/
abbrev SX : Shape := ⟨3, ![64, 1, 1024]⟩
abbrev SW : Shape := ⟨2, ![100000, 1024]⟩
abbrev SO : Shape := ⟨3, ![64, 1, 100000]⟩

/-- The logits: entry `(b, s, v)` is the inner product over the hidden axis of row `(b, s)` of the
    activations with row `v` of the weight table. -/
def logits (x : SX.Idx → EReal) (W : SW.Idx → EReal) : SO.Idx → EReal :=
  fun i => ∑ h : Fin 1024, x (ix3 (i 0) (i 1) h) * W (ix2 (i 2) h)

theorem logits_apply (x : SX.Idx → EReal) (W : SW.Idx → EReal) (b : Fin 64) (s : Fin 1) (v : Fin 100000) :
    logits x W (ix3 b s v) = ∑ h : Fin 1024, x (ix3 b s h) * W (ix2 v h) := rfl

end Cert.Spec

end
-- ==== Proof.IdealData.lean ====
/-
  The proof data of the pipeline at the ideal instance: the arrays at their launch contents; after the body at
  point `t` the activations' buffer still holds the activations, each weight window's buffer its block of the
  table (the rows inside the table; past the table's end a filler nothing reads), and the result's buffer the
  block of the logits that point `t` writes back (again with a filler past the array's end). The weight table is
  held at a quarter share by each of its four windows.
-/
import proofs.«165080_g29180007809632_cont_9to1_400_6_alg».proof.Proof.Body
import proofs.«165080_g29180007809632_cont_9to1_400_6_alg».proof.Proof.ShareSplit
import proofs.«165080_g29180007809632_cont_9to1_400_6_alg».proof.Proof.Spec
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄I" => MT nD τ sig Unit (Elt Ideal) ℕ (UR sig nD τ) ℕ

variable (m : (ℓ : Loc nD τ sig) → Buf (Elt Ideal) ℓ) (ρ : Dev nD → PrngReg)

/-! ## The arrays and the logits -/

/-- The activations and the weight table as launched, on core `c`. -/
abbrev xArr (c : Dev nD) : Vec Ideal S64x1x1024 .f32 := m ((c : Thread nD τ).loc main_arg0)
abbrev wArr (c : Dev nD) : Vec Ideal S100000x1024 .f32 := m ((c : Thread nD τ).loc main_arg1)

/-- The logits of the launched arrays: what the result array is shown to end holding. -/
def logitsArr (c : Dev nD) : Vec Ideal S64x1x100000 .f32 := Cert.Spec.logits (xArr m c) (wArr m c)

/-- Window `w`'s block at point `t` — its part inside the array — read off the launch memory. -/
def iblk (c : Dev nD) (w : Fin cfg0.W) (t : Fin cfg0.N) : ((cfg0.win w).xblock (cfg0.grid.coords t)).Idx → Elt Ideal (cfg0.win w).elt :=
  ((cfg0.win w).blk t).view.read (Elt Ideal) (m ((cfg0.win w).arr.view.loc (c : Thread nD τ)))

/-- The block of the logits that point `t` writes back: the part of the result's block inside the array. -/
def oblk (c : Dev nD) (t : Fin cfg0.N) : (win0_5.xblock (grid0.coords t)).Idx → Elt Ideal .f32 :=
  (win0_5.blk t).view.read (Elt Ideal) (logitsArr m c)

/-! ## The proof data -/

/-- The filler past an array's end: never read. -/
abbrev zfill {S : Shape} : S.Idx → Elt Ideal .f32 := fun _ => (0 : EReal)

def dats (_ : Fin 1) (c : Dev nD) : Dat τ (Elt Ideal) Unit ℕ (UR sig nD τ) ℕ cfg0 c where
  A w := m ((cfg0.win w).arr.view.loc (c : Thread nD τ))
  after w t := match w with
    | ⟨0, _⟩ => iblk m c 0 t
    | ⟨1, _⟩ => win0_1.fill (grid0.coords t) zfill (iblk m c 1 t)
    | ⟨2, _⟩ => win0_2.fill (grid0.coords t) zfill (iblk m c 2 t)
    | ⟨3, _⟩ => win0_3.fill (grid0.coords t) zfill (iblk m c 3 t)
    | ⟨4, _⟩ => win0_4.fill (grid0.coords t) zfill (iblk m c 4 t)
    | ⟨5, _⟩ => win0_5.fill (grid0.coords t) zfill (oblk m c t)
  Φ _ := iprop(emp)
  q := winShare
  owed _ := 0

theorem after_0 (c : Dev nD) (t : Fin cfg0.N) : (dats m 0 c).after 0 t = iblk m c 0 t := by dsimp only [dats]
theorem after_1 (c : Dev nD) (t : Fin cfg0.N) : (dats m 0 c).after 1 t = win0_1.fill (grid0.coords t) zfill (iblk m c 1 t) := by dsimp only [dats]
theorem after_2 (c : Dev nD) (t : Fin cfg0.N) : (dats m 0 c).after 2 t = win0_2.fill (grid0.coords t) zfill (iblk m c 2 t) := by dsimp only [dats]
theorem after_3 (c : Dev nD) (t : Fin cfg0.N) : (dats m 0 c).after 3 t = win0_3.fill (grid0.coords t) zfill (iblk m c 3 t) := by dsimp only [dats]
theorem after_4 (c : Dev nD) (t : Fin cfg0.N) : (dats m 0 c).after 4 t = win0_4.fill (grid0.coords t) zfill (iblk m c 4 t) := by dsimp only [dats]
theorem after_5 (c : Dev nD) (t : Fin cfg0.N) : (dats m 0 c).after 5 t = win0_5.fill (grid0.coords t) zfill (oblk m c t) := by dsimp only [dats]

/-! ## What the body finds -/

/-- The result's window is never fetched. -/
theorem fetch_5 : ∀ t : Fin cfg0.N, (cfg0.win 5).fetch t = false :=
  (by decide +kernel : ∀ t : Fin grid0.N, win0_5.fetch t = false)

/-- The activations' buffer holds the activations at every point: fetched at the first, left in place after. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; rfl) t d).trans (by unfold Dat.fetched Dat.blockOf iblk; rfl)

/-- Each weight window is fetched at every point: its buffer holds the block on the rows inside the table and
    whatever the overwrite left (`d`) past its end. -/
theorem before_1 (c : Dev nD) (t : Fin cfg0.N) (d) : (dats m 0 c).before 1 t d = win0_1.fill (grid0.coords t) d (iblk m c 1 t) := by
  unfold Dat.before; rw [if_pos (fetch0_1 t)]; rfl
theorem before_2 (c : Dev nD) (t : Fin cfg0.N) (d) : (dats m 0 c).before 2 t d = win0_2.fill (grid0.coords t) d (iblk m c 2 t) := by
  unfold Dat.before; rw [if_pos (fetch0_2 t)]; rfl
theorem before_3 (c : Dev nD) (t : Fin cfg0.N) (d) : (dats m 0 c).before 3 t d = win0_3.fill (grid0.coords t) d (iblk m c 3 t) := by
  unfold Dat.before; rw [if_pos (fetch0_3 t)]; rfl
theorem before_4 (c : Dev nD) (t : Fin cfg0.N) (d) : (dats m 0 c).before 4 t d = win0_4.fill (grid0.coords t) d (iblk m c 4 t) := by
  unfold Dat.before; rw [if_pos (fetch0_4 t)]; rfl

/-- The result's buffer is written back at every point, so the body finds it at contents nothing names. -/
theorem before_5 (c : Dev nD) (t : Fin cfg0.N) (d) : (dats m 0 c).before 5 t d = d := by
  unfold Dat.before
  rw [if_neg (by rw [fetch_5 t]; exact Bool.false_ne_true)]
  by_cases ht : t.val = 0
  · rw [if_pos ht]
  · rw [if_neg ht]; exact if_pos (flush0_5 _)

end Cert.KernelIdeal.Hand

end
-- ==== Proof.BlockValue.lean ====
/-
  One point of the grid at the ideal instance: on the columns inside the array, what the body stores into the
  result's buffer is the logits' block. Column `1024 k + r` of the buffer is the inner product of an activations'
  row with row `r` of the `k`-th weight window's buffer; where the column lies inside the result array, the window's
  block index `4 t + k` is not clamped and row `r` lies inside the weight table, so the buffer's row is the table's
  row `1024 (4 t + k) + r = 4096 t + (1024 k + r)`, whatever the buffer holds past the table's end.
-/
import proofs.«165080_g29180007809632_cont_9to1_400_6_alg».proof.Proof.IdealData

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

variable (m : (ℓ : Loc nD τ sig) → Buf (Elt Ideal) ℓ)

/-! ## The index maps over the grid -/

theorem point_lt (t : Fin cfg0.N) : t.val < 25 := by
  have h := t.isLt
  have hN : cfg0.N = 25 := Gen.N_0
  omega

/-- The result's block at point `t` is block `(0, 0, t)`; inside the array it has `min 4096 (100000 - 4096 t)` columns. -/
theorem outIndex : ∀ t : Fin cfg0.N, win0_5.index t (0 : Fin 3) = 0 ∧ win0_5.index t (1 : Fin 3) = 0 ∧ win0_5.index t (2 : Fin 3) = t.val :=
  (by decide +kernel : ∀ t : Fin grid0.N, _)

theorem outSize : ∀ t : Fin cfg0.N, win0_5.xsize (grid0.coords t) (0 : Fin 3) = 64 ∧ win0_5.xsize (grid0.coords t) (1 : Fin 3) = 1
    ∧ win0_5.xsize (grid0.coords t) (2 : Fin 3) = min 4096 (100000 - 4096 * t.val) :=
  (by decide +kernel : ∀ t : Fin grid0.N, _)

/-- The activations' block is the whole array at every point. -/
theorem actIndex : ∀ t : Fin cfg0.N, win0_0.index t (0 : Fin 3) = 0 ∧ win0_0.index t (1 : Fin 3) = 0 ∧ win0_0.index t (2 : Fin 3) = 0 :=
  (by decide +kernel : ∀ t : Fin grid0.N, _)

/-- Weight window `k` at point `t` is block `(min (4 t + k) 97, 0)` of the table, with
    `min 1024 (100000 - 1024 · index)` rows inside it. -/
theorem wIndex0 : ∀ t : Fin cfg0.N, win0_1.index t (0 : Fin 2) = min (4 * t.val + 0) 97 ∧ win0_1.index t (1 : Fin 2) = 0 :=
  (by decide +kernel : ∀ t : Fin grid0.N, _)
theorem wIndex1 : ∀ t : Fin cfg0.N, win0_2.index t (0 : Fin 2) = min (4 * t.val + 1) 97 ∧ win0_2.index t (1 : Fin 2) = 0 :=
  (by decide +kernel : ∀ t : Fin grid0.N, _)
theorem wIndex2 : ∀ t : Fin cfg0.N, win0_3.index t (0 : Fin 2) = min (4 * t.val + 2) 97 ∧ win0_3.index t (1 : Fin 2) = 0 :=
  (by decide +kernel : ∀ t : Fin grid0.N, _)
theorem wIndex3 : ∀ t : Fin cfg0.N, win0_4.index t (0 : Fin 2) = min (4 * t.val + 3) 97 ∧ win0_4.index t (1 : Fin 2) = 0 :=
  (by decide +kernel : ∀ t : Fin grid0.N, _)

theorem wSize0 : ∀ t : Fin cfg0.N, win0_1.xsize (grid0.coords t) (0 : Fin 2) = min 1024 (100000 - 1024 * min (4 * t.val + 0) 97)
    ∧ win0_1.xsize (grid0.coords t) (1 : Fin 2) = 1024 :=
  (by decide +kernel : ∀ t : Fin grid0.N, _)
theorem wSize1 : ∀ t : Fin cfg0.N, win0_2.xsize (grid0.coords t) (0 : Fin 2) = min 1024 (100000 - 1024 * min (4 * t.val + 1) 97)
    ∧ win0_2.xsize (grid0.coords t) (1 : Fin 2) = 1024 :=
  (by decide +kernel : ∀ t : Fin grid0.N, _)
theorem wSize2 : ∀ t : Fin cfg0.N, win0_3.xsize (grid0.coords t) (0 : Fin 2) = min 1024 (100000 - 1024 * min (4 * t.val + 2) 97)
    ∧ win0_3.xsize (grid0.coords t) (1 : Fin 2) = 1024 :=
  (by decide +kernel : ∀ t : Fin grid0.N, _)
theorem wSize3 : ∀ t : Fin cfg0.N, win0_4.xsize (grid0.coords t) (0 : Fin 2) = min 1024 (100000 - 1024 * min (4 * t.val + 3) 97)
    ∧ win0_4.xsize (grid0.coords t) (1 : Fin 2) = 1024 :=
  (by decide +kernel : ∀ t : Fin grid0.N, _)

/-! ## A weight buffer's row inside the table -/

theorem wbuf0 (c : Dev nD) (t : Fin cfg0.N) (d : S1024x1024.Idx → Elt Ideal .f32) (r h : Fin 1024)
    (hr : 1024 * (4 * t.val + 0) + r.val < 100000) :
    win0_1.fill (grid0.coords t) d (iblk m c 1 t) (ix2 r h) = wArr m c (ix2 ⟨1024 * (4 * t.val + 0) + r.val, hr⟩ h) := by
  obtain ⟨e0, e1⟩ := wIndex0 t
  obtain ⟨s0, s1⟩ := wSize0 t
  have hN := point_lt t
  have hr' := r.isLt
  have hh' := h.isLt
  unfold Window.fill
  rw [dif_pos ((win0_1.moved_iff _ _).mpr (fun a => by
    match a with
    | ⟨0, _⟩ => show r.val < win0_1.xsize (grid0.coords t) (0 : Fin 2); omega
    | ⟨1, _⟩ => show h.val < win0_1.xsize (grid0.coords t) (1 : Fin 2); omega))]
  show wArr m c ((win0_1.blk t).view.emb _) = _
  congr 1
  funext a; apply Fin.ext
  match a with
  | ⟨0, _⟩ => show win0_1.index t (0 : Fin 2) * 1024 + 1 * r.val = 1024 * (4 * t.val + 0) + r.val; omega
  | ⟨1, _⟩ => show win0_1.index t (1 : Fin 2) * 1024 + 1 * h.val = h.val; omega

theorem wbuf1 (c : Dev nD) (t : Fin cfg0.N) (d : S1024x1024.Idx → Elt Ideal .f32) (r h : Fin 1024)
    (hr : 1024 * (4 * t.val + 1) + r.val < 100000) :
    win0_2.fill (grid0.coords t) d (iblk m c 2 t) (ix2 r h) = wArr m c (ix2 ⟨1024 * (4 * t.val + 1) + r.val, hr⟩ h) := by
  obtain ⟨e0, e1⟩ := wIndex1 t
  obtain ⟨s0, s1⟩ := wSize1 t
  have hN := point_lt t
  have hr' := r.isLt
  have hh' := h.isLt
  unfold Window.fill
  rw [dif_pos ((win0_2.moved_iff _ _).mpr (fun a => by
    match a with
    | ⟨0, _⟩ => show r.val < win0_2.xsize (grid0.coords t) (0 : Fin 2); omega
    | ⟨1, _⟩ => show h.val < win0_2.xsize (grid0.coords t) (1 : Fin 2); omega))]
  show wArr m c ((win0_2.blk t).view.emb _) = _
  congr 1
  funext a; apply Fin.ext
  match a with
  | ⟨0, _⟩ => show win0_2.index t (0 : Fin 2) * 1024 + 1 * r.val = 1024 * (4 * t.val + 1) + r.val; omega
  | ⟨1, _⟩ => show win0_2.index t (1 : Fin 2) * 1024 + 1 * h.val = h.val; omega

theorem wbuf2 (c : Dev nD) (t : Fin cfg0.N) (d : S1024x1024.Idx → Elt Ideal .f32) (r h : Fin 1024)
    (hr : 1024 * (4 * t.val + 2) + r.val < 100000) :
    win0_3.fill (grid0.coords t) d (iblk m c 3 t) (ix2 r h) = wArr m c (ix2 ⟨1024 * (4 * t.val + 2) + r.val, hr⟩ h) := by
  obtain ⟨e0, e1⟩ := wIndex2 t
  obtain ⟨s0, s1⟩ := wSize2 t
  have hN := point_lt t
  have hr' := r.isLt
  have hh' := h.isLt
  unfold Window.fill
  rw [dif_pos ((win0_3.moved_iff _ _).mpr (fun a => by
    match a with
    | ⟨0, _⟩ => show r.val < win0_3.xsize (grid0.coords t) (0 : Fin 2); omega
    | ⟨1, _⟩ => show h.val < win0_3.xsize (grid0.coords t) (1 : Fin 2); omega))]
  show wArr m c ((win0_3.blk t).view.emb _) = _
  congr 1
  funext a; apply Fin.ext
  match a with
  | ⟨0, _⟩ => show win0_3.index t (0 : Fin 2) * 1024 + 1 * r.val = 1024 * (4 * t.val + 2) + r.val; omega
  | ⟨1, _⟩ => show win0_3.index t (1 : Fin 2) * 1024 + 1 * h.val = h.val; omega

theorem wbuf3 (c : Dev nD) (t : Fin cfg0.N) (d : S1024x1024.Idx → Elt Ideal .f32) (r h : Fin 1024)
    (hr : 1024 * (4 * t.val + 3) + r.val < 100000) :
    win0_4.fill (grid0.coords t) d (iblk m c 4 t) (ix2 r h) = wArr m c (ix2 ⟨1024 * (4 * t.val + 3) + r.val, hr⟩ h) := by
  obtain ⟨e0, e1⟩ := wIndex3 t
  obtain ⟨s0, s1⟩ := wSize3 t
  have hN := point_lt t
  have hr' := r.isLt
  have hh' := h.isLt
  unfold Window.fill
  rw [dif_pos ((win0_4.moved_iff _ _).mpr (fun a => by
    match a with
    | ⟨0, _⟩ => show r.val < win0_4.xsize (grid0.coords t) (0 : Fin 2); omega
    | ⟨1, _⟩ => show h.val < win0_4.xsize (grid0.coords t) (1 : Fin 2); omega))]
  show wArr m c ((win0_4.blk t).view.emb _) = _
  congr 1
  funext a; apply Fin.ext
  match a with
  | ⟨0, _⟩ => show win0_4.index t (0 : Fin 2) * 1024 + 1 * r.val = 1024 * (4 * t.val + 3) + r.val; omega
  | ⟨1, _⟩ => show win0_4.index t (1 : Fin 2) * 1024 + 1 * h.val = h.val; omega

/-! ## The blocks read off the arrays -/

/-- The activations' buffer is the activations' array: its one block is the whole of it. -/
theorem actbuf (c : Dev nD) (t : Fin cfg0.N) (b : Fin 64) (h : Fin 1024) :
    iblk m c 0 t (ix3 b (0 : Fin 1) h) = xArr m c (ix3 b (0 : Fin 1) h) := by
  obtain ⟨e0, e1, e2⟩ := actIndex t
  show xArr m c ((win0_0.blk t).view.emb (ix3 b (0 : Fin 1) h)) = _
  congr 1
  funext a; apply Fin.ext
  match a with
  | ⟨0, _⟩ => show win0_0.index t (0 : Fin 3) * 64 + 1 * b.val = b.val; omega
  | ⟨1, _⟩ => show win0_0.index t (1 : Fin 3) * 1 + 1 * 0 = 0; omega
  | ⟨2, _⟩ => show win0_0.index t (2 : Fin 3) * 1024 + 1 * h.val = h.val; omega

/-- The logits' block at point `t`, at a column inside the array: the inner product of the activations' row with the
    table's row `4096 t + column`. -/
theorem outblk (c : Dev nD) (t : Fin cfg0.N) (j : (win0_5.xblock (grid0.coords t)).Idx) (hb : (j 0).val < 64)
    (hc : 4096 * t.val + (j 2).val < 100000) :
    oblk m c t j = ∑ h : Fin 1024, xArr m c (ix3 ⟨(j 0).val, hb⟩ (0 : Fin 1) h) * wArr m c (ix2 ⟨4096 * t.val + (j 2).val, hc⟩ h) := by
  obtain ⟨e0, e1, e2⟩ := outIndex t
  obtain ⟨s0, s1, s2⟩ := outSize t
  have hj1 : (j 1).val < win0_5.xsize (grid0.coords t) (1 : Fin 3) := (j 1).isLt
  have hemb : (win0_5.blk t).view.emb j = ix3 (⟨(j 0).val, hb⟩ : Fin 64) (0 : Fin 1) (⟨4096 * t.val + (j 2).val, hc⟩ : Fin 100000) := by
    funext a; apply Fin.ext
    match a with
    | ⟨0, _⟩ => show win0_5.index t (0 : Fin 3) * 64 + 1 * (j 0).val = (j 0).val; omega
    | ⟨1, _⟩ => show win0_5.index t (1 : Fin 3) * 1 + 1 * (j 1).val = 0; omega
    | ⟨2, _⟩ => show win0_5.index t (2 : Fin 3) * 4096 + 1 * (j 2).val = 4096 * t.val + (j 2).val; omega
  show logitsArr m c ((win0_5.blk t).view.emb j) = _
  rw [hemb]
  exact Cert.Spec.logits_apply (xArr m c) (wArr m c) _ _ _

/-- What the four payload lemmas say: quarter `k` of the result's buffer, at row `b` and column `1024 k + r`, is the
    inner product of the activations' row `b` with row `r` of weight buffer `k`. -/
structure QuarterFacts : Prop where
  q0 : ∀ (x : Vec Ideal S64x1x1024 .f32) (w0 w1 w2 w3 : Vec Ideal S1024x1024 .f32) (b : Fin 64) (r : Fin 1024),
    outFn (F := Ideal) x w0 w1 w2 w3 (ix3 b (0 : Fin 1) (⟨r.val, by omega⟩ : Fin 4096)) = ∑ h : Fin 1024, x (ix3 b (0 : Fin 1) h) * w0 (ix2 r h)
  q1 : ∀ (x : Vec Ideal S64x1x1024 .f32) (w0 w1 w2 w3 : Vec Ideal S1024x1024 .f32) (b : Fin 64) (r : Fin 1024),
    outFn (F := Ideal) x w0 w1 w2 w3 (ix3 b (0 : Fin 1) (⟨1024 + r.val, by omega⟩ : Fin 4096)) = ∑ h : Fin 1024, x (ix3 b (0 : Fin 1) h) * w1 (ix2 r h)
  q2 : ∀ (x : Vec Ideal S64x1x1024 .f32) (w0 w1 w2 w3 : Vec Ideal S1024x1024 .f32) (b : Fin 64) (r : Fin 1024),
    outFn (F := Ideal) x w0 w1 w2 w3 (ix3 b (0 : Fin 1) (⟨2048 + r.val, by omega⟩ : Fin 4096)) = ∑ h : Fin 1024, x (ix3 b (0 : Fin 1) h) * w2 (ix2 r h)
  q3 : ∀ (x : Vec Ideal S64x1x1024 .f32) (w0 w1 w2 w3 : Vec Ideal S1024x1024 .f32) (b : Fin 64) (r : Fin 1024),
    outFn (F := Ideal) x w0 w1 w2 w3 (ix3 b (0 : Fin 1) (⟨3072 + r.val, by omega⟩ : Fin 4096)) = ∑ h : Fin 1024, x (ix3 b (0 : Fin 1) h) * w3 (ix2 r h)

/-! ## A column of the result's buffer inside the array -/

/-- Column `cc = 1024 k + r` of the result's buffer, where `v = 4096 t + cc` is a column of the array: the window's block
    index `4 t + k` is not clamped and row `r` of its buffer is the table's row `1024 (4 t + k) + r = v`. -/
theorem col_value (hq : QuarterFacts) (c : Dev nD) (t : Fin cfg0.N) (d1 d2 d3 d4 : S1024x1024.Idx → Elt Ideal .f32)
    (b : Fin 64) (cc : Fin 4096) (v : Fin 100000) (hv : v.val = 4096 * t.val + cc.val) :
    outFn (F := Ideal) (iblk m c 0 t)
        (win0_1.fill (grid0.coords t) d1 (iblk m c 1 t)) (win0_2.fill (grid0.coords t) d2 (iblk m c 2 t))
        (win0_3.fill (grid0.coords t) d3 (iblk m c 3 t)) (win0_4.fill (grid0.coords t) d4 (iblk m c 4 t))
        (ix3 b (0 : Fin 1) cc)
      = ∑ h : Fin 1024, xArr m c (ix3 b (0 : Fin 1) h) * wArr m c (ix2 v h) := by
  have hN := point_lt t
  have hcc := cc.isLt
  have hvlt := v.isLt
  rcases (show cc.val < 1024 ∨ (1024 ≤ cc.val ∧ cc.val < 2048) ∨ (2048 ≤ cc.val ∧ cc.val < 3072) ∨ 3072 ≤ cc.val from by omega)
    with h0 | h1 | h2 | h3
  · -- quarter 0: columns 0 ‥ 1023
    have he : cc = (⟨(⟨cc.val - 0, by omega⟩ : Fin 1024).val, by show (cc.val - 0) < 4096; omega⟩ : Fin 4096) :=
      Fin.ext (by show cc.val = (cc.val - 0); omega)
    rw [he]
    refine (hq.q0 _ _ _ _ _ b _).trans ?_
    refine Finset.sum_congr rfl fun h _ => ?_
    rw [actbuf m c t b h, wbuf0 m c t d1 _ h (by show 1024 * (4 * t.val + 0) + (cc.val - 0) < 100000; omega)]
    congr 2
    funext a; apply Fin.ext
    match a with
    | ⟨0, _⟩ => show 1024 * (4 * t.val + 0) + (cc.val - 0) = v.val; omega
    | ⟨1, _⟩ => rfl
  · -- quarter 1: columns 1024 ‥ 2047
    have he : cc = (⟨1024 + (⟨cc.val - 1024, by omega⟩ : Fin 1024).val, by show 1024 + (cc.val - 1024) < 4096; omega⟩ : Fin 4096) :=
      Fin.ext (by show cc.val = 1024 + (cc.val - 1024); omega)
    rw [he]
    refine (hq.q1 _ _ _ _ _ b _).trans ?_
    refine Finset.sum_congr rfl fun h _ => ?_
    rw [actbuf m c t b h, wbuf1 m c t d2 _ h (by show 1024 * (4 * t.val + 1) + (cc.val - 1024) < 100000; omega)]
    congr 2
    funext a; apply Fin.ext
    match a with
    | ⟨0, _⟩ => show 1024 * (4 * t.val + 1) + (cc.val - 1024) = v.val; omega
    | ⟨1, _⟩ => rfl
  · -- quarter 2: columns 2048 ‥ 3071
    have he : cc = (⟨2048 + (⟨cc.val - 2048, by omega⟩ : Fin 1024).val, by show 2048 + (cc.val - 2048) < 4096; omega⟩ : Fin 4096) :=
      Fin.ext (by show cc.val = 2048 + (cc.val - 2048); omega)
    rw [he]
    refine (hq.q2 _ _ _ _ _ b _).trans ?_
    refine Finset.sum_congr rfl fun h _ => ?_
    rw [actbuf m c t b h, wbuf2 m c t d3 _ h (by show 1024 * (4 * t.val + 2) + (cc.val - 2048) < 100000; omega)]
    congr 2
    funext a; apply Fin.ext
    match a with
    | ⟨0, _⟩ => show 1024 * (4 * t.val + 2) + (cc.val - 2048) = v.val; omega
    | ⟨1, _⟩ => rfl
  · -- quarter 3: columns 3072 ‥ 4095
    have he : cc = (⟨3072 + (⟨cc.val - 3072, by omega⟩ : Fin 1024).val, by show 3072 + (cc.val - 3072) < 4096; omega⟩ : Fin 4096) :=
      Fin.ext (by show cc.val = 3072 + (cc.val - 3072); omega)
    rw [he]
    refine (hq.q3 _ _ _ _ _ b _).trans ?_
    refine Finset.sum_congr rfl fun h _ => ?_
    rw [actbuf m c t b h, wbuf3 m c t d4 _ h (by show 1024 * (4 * t.val + 3) + (cc.val - 3072) < 100000; omega)]
    congr 2
    funext a; apply Fin.ext
    match a with
    | ⟨0, _⟩ => show 1024 * (4 * t.val + 3) + (cc.val - 3072) = v.val; omega
    | ⟨1, _⟩ => rfl

/-- The part of the result's buffer that point `t` writes back is the logits' block there, whatever the four weight
    buffers hold past the table's end. -/
theorem out_block_of (hq : QuarterFacts) (c : Dev nD) (t : Fin cfg0.N) (d1 d2 d3 d4 : S1024x1024.Idx → Elt Ideal .f32) :
    win0_5.cut (grid0.coords t)
      (outFn (F := Ideal) (iblk m c 0 t)
        (win0_1.fill (grid0.coords t) d1 (iblk m c 1 t)) (win0_2.fill (grid0.coords t) d2 (iblk m c 2 t))
        (win0_3.fill (grid0.coords t) d3 (iblk m c 3 t)) (win0_4.fill (grid0.coords t) d4 (iblk m c 4 t)))
      = oblk m c t := by
  funext j
  obtain ⟨s0, s1, s2⟩ := outSize t
  have hN := point_lt t
  have hj0 : (j 0).val < win0_5.xsize (grid0.coords t) (0 : Fin 3) := (j 0).isLt
  have hj1 : (j 1).val < win0_5.xsize (grid0.coords t) (1 : Fin 3) := (j 1).isLt
  have hj2 : (j 2).val < win0_5.xsize (grid0.coords t) (2 : Fin 3) := (j 2).isLt
  have hb : (j 0).val < 64 := by omega
  have hcc : (j 2).val < 4096 := by omega
  have hc : 4096 * t.val + (j 2).val < 100000 := by omega
  rw [outblk m c t j hb hc]
  have hx : win0_5.xinj (grid0.coords t) j = ix3 (⟨(j 0).val, hb⟩ : Fin 64) (0 : Fin 1) (⟨(j 2).val, hcc⟩ : Fin 4096) := by
    funext a; apply Fin.ext
    match a with
    | ⟨0, _⟩ => rfl
    | ⟨1, _⟩ => show (j 1).val = 0; omega
    | ⟨2, _⟩ => rfl
  show outFn (F := Ideal) _ _ _ _ _ (win0_5.xinj (grid0.coords t) j) = _
  rw [hx]
  exact col_value m hq c t d1 d2 d3 d4 _ _ _ rfl

end Cert.KernelIdeal.Hand

end
-- ==== Proof.IdealRun.lean ====
/-
  The run of the idealized kernel program: the body obligation at every point — the body finds the activations,
  the four weight blocks (each filled out past the table's end with whatever the overwrite left) and the result's
  buffer at anything, and leaves the inputs in place and the result's buffer holding, on the columns inside the
  array, the logits' block —; the launch, the weight table's share split among its four windows; and the arrays
  after the run: the two arguments as launched, the result the logits.
-/
import proofs.«165080_g29180007809632_cont_9to1_400_6_alg».proof.Proof.BlockValue

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄I" => MT nD τ sig Unit (Elt Ideal) ℕ (UR sig nD τ) ℕ

/-- The proof's resource algebra: one copy of the rounds library's, the pipeline's. -/
abbrev EPI : Emb (UR sig nD τ) (MT nD τ sig Unit (Elt Ideal) ℕ (UR sig nD τ) ℕ) := emb₁

variable (m : (ℓ : Loc nD τ sig) → Buf (Elt Ideal) ℓ) (ρ : Dev nD → PrngReg)

/-! ## The body obligation -/

theorem body_obligation (hq : QuarterFacts) (c : Dev nD) :
    BodyObligationLoose (dats m 0 c) (defs₀ (F := Ideal)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩⟩
  rw [before_0 m c t d0, before_1 m c t d1, before_2 m c t d2, before_3 m c t d3, before_4 m c t d4, before_5 m c t d5]
  iapply (sound_kernel (F := Ideal) c Set.univ (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    (win0_5.stage (cfg0.slots t 5)) (hstage0_5 ((cfg0.slots t 5).cast nbuf0_5)) (iblk m c 0 t)
    (win0_1.fill (grid0.coords t) d1 (iblk m c 1 t)) (win0_2.fill (grid0.coords t) d2 (iblk m c 2 t))
    (win0_3.fill (grid0.coords t) d3 (iblk m c 3 t)) (win0_4.fill (grid0.coords t) d4 (iblk m c 4 t)) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]
  · rw [after_0]; iexact H0
  isplitl [H1]
  · iexists d1; rw [after_1, win0_1.cut_fill]; iexact H1
  isplitl [H2]
  · iexists d2; rw [after_2, win0_2.cut_fill]; iexact H2
  isplitl [H3]
  · iexists d3; rw [after_3, win0_3.cut_fill]; iexact H3
  isplitl [H4]
  · iexists d4; rw [after_4, win0_4.cut_fill]; iexact H4
  · iexists (outFn (F := Ideal) (iblk m c 0 t)
      (win0_1.fill (grid0.coords t) d1 (iblk m c 1 t)) (win0_2.fill (grid0.coords t) d2 (iblk m c 2 t))
      (win0_3.fill (grid0.coords t) d3 (iblk m c 3 t)) (win0_4.fill (grid0.coords t) d4 (iblk m c 4 t)))
    rw [after_5, win0_5.cut_fill, ← out_block_of m hq c t d1 d2 d3 d4, win0_5.fill_cut]
    iexact H5

/-! ## The launch -/

/-- The launch element: every staging cell's owner at round 0 and a duty token for every transfer the pipeline issues. -/
def u₀I : UR sig nD τ := initOf (Pipeline.cells cfgs cellOf_inj) (Pipeline.launchToks cfgs cellOf_inj)

set_option backward.isDefEq.respectTransparency.types false in
/-- From any memory with zero counters every weakly fair execution of @main terminates, and every final state has
    each window's array at what the proof data's write-backs make of it. -/
theorem run_main (hq : QuarterFacts) : θ_run (defs (F := Ideal)) (onTc (τ := τ) (main (F := Ideal))) ⟨m, fun _ => 0, ρ⟩
    (fun r => ∀ (c : Dev nD) (w : Fin cfg0.W), r.2.mem ((cfg0.win w).arr.view.loc (c : Thread nD τ)) = (dats m 0 c).arrAt w cfg0.N) :=
  Pipeline.θ_run_region_noSem_shared cfgs (dats m) () cellOf_inj (0 : Fin 1) winFacts₀0 EPI defs₀ Variants.none m ρ main
    (hbody := body_obligation m hq)
    (hne := block_pos0) (harr := arr_whole0) (hstage := stage_whole0)
    (howed := fun _ _ => rfl)
    (u₀ := u₀I) (hu₀ := BI.Entails.refl _)
    (V := fun c b => m ((c : Thread nD τ).loc b))
    (hmain := fun c Q => by
      simp only [main, Prog.lift, Prog.bind_op, Prog.bind_ret]
      iintro ⟨Hk, Hb⟩; iapply Hk; iexact Hb)
    (hsplit := fun c => arrays_of_arrBufs c _ (dats m 0 c).share rfl rfl rfl rfl rfl rfl)
    (X := fun _ => iprop(emp)) (Y := fun _ => iprop(emp)) (Z := fun _ => iprop(emp))
    (hX := fun c => by rw [unscopedRest0_eq]; iintro -; isplitr <;> iempintro)
    (hin := fun _ => by rw [scopedRest0_eq]; iintro ⟨-, -⟩; iempintro)
    (hout := fun _ => by rw [scopedRest0_eq]; iintro -; isplitr <;> iempintro)
    (QY := fun _ _ => True)
    (hY := fun c s' => by
      iintro ⟨-, -, HSI⟩; imodintro
      isplitr; · ipureintro; trivial
      iexact HSI)
    (hQ := fun _ h c w => (h c).1 w)

end Cert.KernelIdeal.Hand

end
-- ==== Proof.IdealFinal.lean ====
/-
  The arrays after the idealized kernel's run, in closed form. The two argument arrays are inputs of the pipeline
  and are never written. The result array is written back at every point through that point's block of 4096
  columns cut at the array's end; what is written there is the logits' block, and the 25 blocks cover all
  100000 columns (column `v` lies in block `v / 4096`), so the array ends holding the logits.
-/
import proofs.«165080_g29180007809632_cont_9to1_400_6_alg».proof.Proof.IdealRun

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

variable (m : (ℓ : Loc nD τ sig) → Buf (Elt Ideal) ℓ) (ρ : Dev nD → PrngReg)

/-! ## The arguments -/

theorem final_x (c : Dev nD) : (dats m 0 c).arrAt 0 cfg0.N = m ((c : Thread nD τ).loc main_arg0) :=
  (dats m 0 c).arrAt_in (0 : Fin 6) rfl _
theorem final_w (c : Dev nD) : (dats m 0 c).arrAt 1 cfg0.N = m ((c : Thread nD τ).loc main_arg1) :=
  (dats m 0 c).arrAt_in (1 : Fin 6) rfl _

/-! ## The result -/

/-- The result's window at point `t`: block index `(0, 0, t)`, -/
theorem cov_idx : ∀ t : Fin cfg0.N, win0_5.index t 0 = 0 ∧ win0_5.index t 1 = 0 ∧ win0_5.index t 2 = t.val :=
  (by decide +kernel : ∀ t : Fin grid0.N, win0_5.index t 0 = 0 ∧ win0_5.index t 1 = 0 ∧ win0_5.index t 2 = t.val)
/-- and the sizes of its part inside the array: all 64 rows, the one middle coordinate, and the columns up to the
    array's end. -/
theorem cov_xs : ∀ t : Fin cfg0.N, win0_5.xsize (grid0.coords t) 0 = 64 ∧ win0_5.xsize (grid0.coords t) 1 = 1
      ∧ win0_5.xsize (grid0.coords t) 2 = min 4096 (100000 - 4096 * t.val) :=
  (by decide +kernel : ∀ t : Fin grid0.N, win0_5.xsize (grid0.coords t) 0 = 64 ∧ win0_5.xsize (grid0.coords t) 1 = 1
      ∧ win0_5.xsize (grid0.coords t) 2 = min 4096 (100000 - 4096 * t.val))

/-- Every index of the result array lies in the block of the point `column / 4096`. -/
theorem out_cover (c : Dev nD) (i : S64x1x100000.Idx) :
    ∃ t : Fin cfg0.N, (cfg0.win 5).flush t = true ∧ i ∈ ((cfg0.win 5).blk t).view.set := by
  have h0 : (i 0).val < 64 := (i 0).isLt
  have h1 : (i 1).val < 1 := (i 1).isLt
  have h2 : (i 2).val < 100000 := (i 2).isLt
  have hN : cfg0.N = 25 := N_0
  have ht0 : (i 2).val / 4096 < cfg0.N := by rw [hN]; omega
  refine ⟨⟨(i 2).val / 4096, ht0⟩, flush0_5 _, ?_⟩
  show i ∈ ((View.whole main_v0).slice (win0_5.rect (⟨(i 2).val / 4096, ht0⟩ : Fin cfg0.N))).set
  rw [View.set_slice_whole, Rect.mem_set_unit]
  obtain ⟨e0, e1, e2⟩ := cov_idx ⟨(i 2).val / 4096, ht0⟩
  obtain ⟨s0, s1, s2⟩ := cov_xs ⟨(i 2).val / 4096, ht0⟩
  intro a
  match a with
  | ⟨0, _⟩ =>
    show win0_5.index _ 0 * 64 ≤ (i 0).val ∧ (i 0).val < win0_5.index _ 0 * 64 + win0_5.xsize _ 0
    rw [e0, s0]; omega
  | ⟨1, _⟩ =>
    show win0_5.index _ 1 * 1 ≤ (i 1).val ∧ (i 1).val < win0_5.index _ 1 * 1 + win0_5.xsize _ 1
    rw [e1, s1]; omega
  | ⟨2, _⟩ =>
    show win0_5.index _ 2 * 4096 ≤ (i 2).val ∧ (i 2).val < win0_5.index _ 2 * 4096 + win0_5.xsize _ 2
    rw [e2, s2]; simp only []; omega

/-- The result array ends holding the logits. -/
theorem final_o (c : Dev nD) : (dats m 0 c).arrAt 5 cfg0.N = logitsArr m c :=
  (dats m 0 c).arrAt_eq_of_cover (5 : Fin 6) (logitsArr m c)
    (fun t _ => by
      show win0_5.cut (grid0.coords t) ((dats m 0 c).after 5 t) = _
      rw [after_5, win0_5.cut_fill]; rfl)
    (out_cover c)

/-! ## The run, read at the program's arrays -/

/-- Every weakly fair execution of the idealized kernel program terminates, with the result array at the logits of
    the launched arguments and the arguments unchanged. -/
theorem run_value (hq : QuarterFacts) : θ_run (defs (F := Ideal)) (onTc (τ := τ) (main (F := Ideal))) ⟨m, fun _ => 0, ρ⟩
    (fun r => ∀ c : Dev nD,
      r.2.mem ((c.tc : Thread nD τ).loc main_v0) = logitsArr m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono
    (fun _ h c => ⟨(h c (5 : Fin 6)).trans (final_o m c), (h c (0 : Fin 6)).trans (final_x m c), (h c (1 : Fin 6)).trans (final_w m c)⟩)
    (run_main m ρ hq)

end Cert.KernelIdeal.Hand

end
-- ==== Proof.RefValue.lean ====
/-
  The reference program at the ideal instance: its one contraction over the hidden axis, read at an index, is the
  specification's logits; and its run, with the result dropped, is its frame.
-/
import proofs.«165080_g29180007809632_cont_9to1_400_6_alg».proof.Proof.Spec
import proofs.«165080_g29180007809632_cont_9to1_400_6_alg».proof.Defs
import proofs.«165080_g29180007809632_cont_9to1_400_6_alg».proof.Proof.Gen.ReferenceIdeal.Run
import proofs.«165080_g29180007809632_cont_9to1_400_6_alg».proof.Proof.Gen.ReferenceIdeal.Read
import proofs.«165080_g29180007809632_cont_9to1_400_6_alg».proof.Proof.Gen.Pre_finite_inputs
import Idealize.ShloMosaic.PureOps.Ideal.Laws
import Idealize.ShloMosaic.Lib.ValueIdx

noncomputable section

open scoped BigOperators

namespace Cert.RefValue

open Idealize.ShloMosaic Idealize.ShloMosaic.TcCoe Idealize.SL.Sem Idealize.ShloMosaic.ValueIdx
open Cert.ReferenceIdeal Cert.ReferenceIdeal.Gen Cert.ReferenceIdeal.Read

/-- The reference's result term is the logits of its two operands: the contraction pairs the activations at
    `(b, s, h)` with the weight table at `(v, h)` and sums over `h`. -/
theorem ref_eq (x0 : (⟨S64x1x1024, .f32⟩ : BufTy).Contents (Elt Ideal)) (x1 : (⟨S100000x1024, .f32⟩ : BufTy).Contents (Elt Ideal)) :
    val_main_v0 (F := Ideal) x0 x1 = Cert.Spec.logits x0 x1 := by
  funext i
  rw [val_main_v0_apply]
  unfold Cert.Spec.logits
  refine Finset.sum_congr rfl fun k _ => ?_
  have el : lidx_main_v0 i k = ix3 (i 0) (i 1) k :=
    funext fun a => by match a with | ⟨0, _⟩ => rfl | ⟨1, _⟩ => rfl | ⟨2, _⟩ => rfl
  have er : ridx_main_v0 i k = ix2 (i 2) k :=
    funext fun a => by match a with | ⟨0, _⟩ => rfl | ⟨1, _⟩ => rfl
  exact congrArg₂ (· * ·) (congrArg x0 el) (congrArg x1 er)

/-- The reference runs to the end, faults nowhere and leaves its arguments unchanged: its run with the result dropped. -/
theorem frame_ri : Cert.frame_ReferenceIdeal (hReferenceIdeal := Cert.ReferenceIdeal.Gen.facts) (hPre_finite_inputs := Cert.Pre_finite_inputs.Gen.facts) :=
  fun m ρ _ =>
    (θ_run Cert.ReferenceIdeal.defs _ _).mono (fun _ h c => (h c).2) (Cert.ReferenceIdeal.Value.run (F := Ideal) m ρ)

end Cert.RefValue

end
-- ==== Proof.KBody.lean ====
/-
  The kernel body, once: on whole staging buffers — the activations' block, four blocks of the weight table and the
  result's block — it loads the activations, and for each of the four weight blocks in turn multiplies the
  activations by the block's transpose and stores the 64 × 1024 product into the matching quarter of the result's
  4096 columns. The inputs' buffers are left as found; the result's buffer ends as the four stores laid over it,
  which cover it, so nothing of what it held before is left.
-/
import proofs.«165080_g29180007809632_cont_9to1_400_6_alg».proof.Proof.Gen.Kernel.Launch
import proofs.«165080_g29180007809632_cont_9to1_400_6_alg».proof.Proof.Gen.Kernel.Skeleton
import proofs.«165080_g29180007809632_cont_9to1_400_6_alg».proof.Proof.Gen.Kernel.Points
import Idealize.ShloMosaic.Lib.Pipeline.FrameBody
import Idealize.ShloMosaic.Lib.Pipeline.Kit
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

/-- The whole activations' buffer, a whole weight block's buffer, and the four quarters (columns
    `1024 k ‥ 1024 k + 1023`) of the result's buffer. -/
abbrev rX : Rect S64x1x1024 := Rect.unit (s := S64x1x1024) ![0, 0, 0] S64x1x1024.size inb_S64x1x1024_S64x1x1024_0_0_0
abbrev rW : Rect S1024x1024 := Rect.unit (s := S1024x1024) ![0, 0] S1024x1024.size inb_S1024x1024_S1024x1024_0_0
abbrev rO0 : Rect S64x1x4096 := Rect.unit (s := S64x1x4096) ![0, 0, 0] S64x1x1024.size inb_S64x1x4096_S64x1x1024_0_0_0
abbrev rO1 : Rect S64x1x4096 := Rect.unit (s := S64x1x4096) ![0, 0, 1024] S64x1x1024.size inb_S64x1x4096_S64x1x1024_0_0_1024
abbrev rO2 : Rect S64x1x4096 := Rect.unit (s := S64x1x4096) ![0, 0, 2048] S64x1x1024.size inb_S64x1x4096_S64x1x1024_0_0_2048
abbrev rO3 : Rect S64x1x4096 := Rect.unit (s := S64x1x4096) ![0, 0, 3072] S64x1x1024.size inb_S64x1x4096_S64x1x1024_0_0_3072

/-! ## What the body leaves in the result's buffer -/

/-- The result's buffer after the body, from what the five input buffers hold: its four stores as pieces, the last
    first; quarter `k` is the product of the activations with the transpose of weight block `k`. -/
def outFn (x : Vec F S64x1x1024 .f32) (w0 w1 w2 w3 : Vec F S1024x1024 .f32) : Vec F S64x1x4096 .f32 :=
  View.canon [⟨rO3, k0_pay5 (View.ld x rX) (View.ld w3 rW)⟩, ⟨rO2, k0_pay4 (View.ld x rX) (View.ld w2 rW)⟩,
    ⟨rO1, k0_pay3 (View.ld x rX) (View.ld w1 rW)⟩, ⟨rO0, k0_pay2 (View.ld x rX) (View.ld w0 rW)⟩]

/-- The four quarters tile the result's buffer, so the stores cover it. -/
theorem outCover (p3 p2 p1 p0 : Vec F S64x1x1024 .f32) (y : S64x1x4096.Idx) :
    ∃ pc ∈ ([⟨rO3, p3⟩, ⟨rO2, p2⟩, ⟨rO1, p1⟩, ⟨rO0, p0⟩] : List (View.Piece (Elt F) S64x1x4096 .f32)), y ∈ pc.1.set :=
  View.cover_of_tiled [⟨rO3, p3⟩, ⟨rO2, p2⟩, ⟨rO1, p1⟩, ⟨rO0, p0⟩] S64x1x1024.size (by rfl) y

/-! ## The body's triple -/

set_option maxHeartbeats 1000000 in
/-- The kernel body on whole staging memrefs, the five inputs' at contents `x`, `w0 … w3` and the result's at
    anything, runs to the continuation holding the inputs' as they were and the result's at `outFn` of the inputs'. -/
theorem sound_kernel (c : Dev nD) (E : Set ℕ) (i : grid0.Coords)
    (a1 : Memref sig .tc .vmem S64x1x1024 .f32) (h1 : a1.IsWhole)
    (a2 : Memref sig .tc .vmem S1024x1024 .f32) (h2 : a2.IsWhole) (a3 : Memref sig .tc .vmem S1024x1024 .f32) (h3 : a3.IsWhole)
    (a4 : Memref sig .tc .vmem S1024x1024 .f32) (h4 : a4.IsWhole) (a5 : Memref sig .tc .vmem S1024x1024 .f32) (h5 : a5.IsWhole)
    (a6 : Memref sig .tc .vmem S64x1x4096 .f32) (h6 : a6.IsWhole)
    (x : Vec F S64x1x1024 .f32) (w0 w1 w2 w3 : Vec F S1024x1024 .f32) (K : PUnit → sProp 𝕄) :
    iprop(owns (c : Thread nD τ) a1 fullShare x ∗ owns (c : Thread nD τ) a2 fullShare w0 ∗ owns (c : Thread nD τ) a3 fullShare w1
        ∗ owns (c : Thread nD τ) a4 fullShare w2 ∗ owns (c : Thread nD τ) a5 fullShare w3 ∗ (∃ d, owns (c : Thread nD τ) a6 fullShare d)
        ∗ (iprop(owns (c : Thread nD τ) a1 fullShare x ∗ owns (c : Thread nD τ) a2 fullShare w0 ∗ owns (c : Thread nD τ) a3 fullShare w1
            ∗ owns (c : Thread nD τ) a4 fullShare w2 ∗ owns (c : Thread nD τ) a5 fullShare w3
            ∗ owns (c : Thread nD τ) a6 fullShare (outFn x w0 w1 w2 w3)) -∗ K ⟨⟩))
      ⊢ wp frame (wpE (defs₀ (F := F)) Variants.none c none) E (cc0__mm_kernel i a1 h1 a2 h2 a3 h3 a4 h4 a5 h5 a6 h6) K := by
  simp only [cc0__mm_kernel_eq_skeleton]; unfold cc0__mm_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (outCover _ _ _ _)

end Cert.Kernel.Hand

end
-- ==== Proof.KShareSplit.lean ====
/-
  The weight table is handed to the kernel through four windows. At the region's entry the three distinct buffers
  behind the six windows are each held whole at the full share; the table's full share is split in four quarter
  shares, one per window that reads it, while the activations' window and the result's window hold their buffers
  at the full share.
-/
import proofs.«165080_g29180007809632_cont_9to1_400_6_alg».proof.Proof.Gen.Kernel.Launch
import Idealize.ShloMosaic.Lib.Pipeline.Kit

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The share each window holds its array at: the activations' (window 0) and the result's (window 5) the full
    share, the four windows on the weight table a quarter each. -/
def winShare : Fin 6 → PosShare TreeShare
  | 0 => fullShare
  | 1 => fullShare.left.left
  | 2 => fullShare.left.right
  | 3 => fullShare.right.left
  | 4 => fullShare.right.right
  | 5 => fullShare

/-- The buffers behind the six windows' arrays are three: the activations, the weight table, the result. -/
theorem arrRef_image : Finset.univ.image (Pipeline.arrRef spec0) = {main_arg0, main_arg1, main_v0} := by decide

/-- The distinct buffers behind the windows' arrays, each whole at the full share at contents `V`, give every
    window its array at its share `sh w`, when `sh` is `winShare` (stated by its six values so that it applies
    to any proof data's `share`). -/
theorem arrays_of_arrBufs (c : Dev nD) (V : (b : Ref sig .tc) → Buf (Elt F) ((c.tc : Thread nD τ).loc b))
    (sh : Fin cfg0.W → PosShare TreeShare)
    (h0 : sh 0 = fullShare) (h1 : sh 1 = fullShare.left.left) (h2 : sh 2 = fullShare.left.right)
    (h3 : sh 3 = fullShare.right.left) (h4 : sh 4 = fullShare.right.right) (h5 : sh 5 = fullShare) :
    (Pipeline.arrBufs spec0 c V : sProp 𝕄)
      ⊢ bigSep Finset.univ fun w : Fin cfg0.W =>
          ((cfg0.win w).arr.view.loc (c.tc : Thread nD τ) ↦[(cfg0.win w).arr.view.set]{sh w} V (Pipeline.arrRef spec0 w) : sProp 𝕄) := by
  classical
  -- the left side: the three distinct buffers, conjoined one by one
  unfold Pipeline.arrBufs
  rw [arrRef_image, bigSep_insert (by decide), bigSep_insert (by decide), bigSep_singleton]
  -- the right side: the six windows, conjoined one by one; a whole array's element set is every element
  refine BIBase.Entails.trans ?_ (Entails.of_eq (bigSep_W0 _).symm)
  simp only [View.set_whole, h0, h1, h2, h3, h4, h5]
  change iprop(((c.tc : Thread nD τ).loc main_arg0 ↦{fullShare} V main_arg0)
        ∗ ((c.tc : Thread nD τ).loc main_arg1 ↦{fullShare} V main_arg1)
        ∗ ((c.tc : Thread nD τ).loc main_v0 ↦{fullShare} V main_v0))
      ⊢ iprop(((c.tc : Thread nD τ).loc main_arg0 ↦{fullShare} V main_arg0)
        ∗ ((c.tc : Thread nD τ).loc main_arg1 ↦{fullShare.left.left} V main_arg1)
        ∗ ((c.tc : Thread nD τ).loc main_arg1 ↦{fullShare.left.right} V main_arg1)
        ∗ ((c.tc : Thread nD τ).loc main_arg1 ↦{fullShare.right.left} V main_arg1)
        ∗ ((c.tc : Thread nD τ).loc main_arg1 ↦{fullShare.right.right} V main_arg1)
        ∗ ((c.tc : Thread nD τ).loc main_v0 ↦{fullShare} V main_v0))
  iintro ⟨H0, H1, H5⟩
  -- the table's full share is its two halves, and each half its two halves
  ihave H1' := (pointsTo_share (PosShare.mem_left_op_right fullShare)).1 $$ H1
  icases H1' with ⟨Hl, Hr⟩
  ihave Hl' := (pointsTo_share (PosShare.mem_left_op_right fullShare.left)).1 $$ Hl
  icases Hl' with ⟨Hll, Hlr⟩
  ihave Hr' := (pointsTo_share (PosShare.mem_left_op_right fullShare.right)).1 $$ Hr
  icases Hr' with ⟨Hrl, Hrr⟩
  isplitl [H0]; · iexact H0
  isplitl [Hll]; · iexact Hll
  isplitl [Hlr]; · iexact Hlr
  isplitl [Hrl]; · iexact Hrl
  isplitl [Hrr]; · iexact Hrr
  iexact H5

end Cert.Kernel.Hand

end
-- ==== Proof.KFrameR.lean ====
/-
  The frame of the kernel at any float instance: the pipeline's run is certified with proof data that constrain
  nothing of what the body leaves in a staging buffer, so that the arrays the kernel only reads end as they began.
-/
import proofs.«165080_g29180007809632_cont_9to1_400_6_alg».proof.Proof.KBody
import proofs.«165080_g29180007809632_cont_9to1_400_6_alg».proof.Proof.KShareSplit
import Idealize.ShloMosaic.Lib.Pipeline.Kit
import Idealize.ShloMosaic.Lib.Pipeline.Launch
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ)

/-- The proof data of the one pipeline on a core: the arrays at their contents at entry; of what the body leaves in
    a staging buffer nothing is said; no invariant; nothing owed; each window's share of its array as split at
    entry. -/
def rdats (_ : Fin 1) (c : Dev nD) : Pipeline.RDat τ (Elt F) Unit ℕ (UR sig nD τ) ℕ cfg0 c where
  A w := m ((cfg0.win w).arr.view.loc (c : Thread nD τ))
  after _ _ _ _ := True
  Φ _ := iprop(emp)
  q := winShare
  owed _ := 0

/-- The body obligation of the data: the body, handed the six current staging buffers at whatever they hold, runs
    and hands each back at some contents — nothing more is asked of them. -/
theorem body_obligationR (c : Dev nD) : (rdats m 0 c).BodyObligation (defs₀ (F := F)) Variants.none () Set.univ := by
  intro t Y hY
  rw [Gen.bigSep_W0, Gen.bigSep_W0]
  rw [show (rdats m 0 c).Φ t.succ = (rdats m 0 c).Φ t.castSucc from rfl,
    show (rdats m 0 c).owesAt () t.succ = (rdats m 0 c).owesAt () t.castSucc from rfl]
  show _ ⊢ wp frame (wpE (defs₀ (F := F)) Variants.none c none) Set.univ (Gen.bodyAt0 t) _
  iintro ⟨HΦ, Ho, H0, H1, H2, H3, H4, H5⟩
  iapply (sound_kernel c Set.univ _ _ _ _ _ _ _ _ _ _ _ _ _ (Y 0) (Y 1) (Y 2) (Y 3) (Y 4) _)
  isplitl [H0]; · iexact H0
  isplitl [H1]; · iexact H1
  isplitl [H2]; · iexact H2
  isplitl [H3]; · iexact H3
  isplitl [H4]; · iexact H4
  isplitl [H5]
  · iexists (Y 5); iexact H5
  iintro ⟨H0, H1, H2, H3, H4, H5⟩
  isplitl [HΦ]; · iexact HΦ
  isplitl [Ho]; · iexact Ho
  isplitl [H0]
  · iexists (Y 0); isplitr; · ipureintro; trivial
    iexact H0
  isplitl [H1]
  · iexists (Y 1); isplitr; · ipureintro; trivial
    iexact H1
  isplitl [H2]
  · iexists (Y 2); isplitr; · ipureintro; trivial
    iexact H2
  isplitl [H3]
  · iexists (Y 3); isplitr; · ipureintro; trivial
    iexact H3
  isplitl [H4]
  · iexists (Y 4); isplitr; · ipureintro; trivial
    iexact H4
  · iexists (outFn (Y 0) (Y 1) (Y 2) (Y 3) (Y 4)); isplitr; · ipureintro; trivial
    iexact H5

/-- The launch element of the ghost state: every staging cell's owner at round 0 and a duty token for every
    transfer the pipeline issues. -/
def u₀R : UR sig nD τ := initOf (Pipeline.cells cfgs Gen.cellOf_inj) (Pipeline.launchToks cfgs Gen.cellOf_inj)

set_option backward.isDefEq.respectTransparency.types false in
/-- At the compiled mesh, for any float values, from any memory whose semaphore counters are zero: every weakly
    fair execution of @main on the TensorCores terminates, and the two argument arrays end as they began. The
    kernel has no semaphore of its own: the ghost state is one copy of the rounds algebra, the launch element the
    pipeline's alone, and nothing is kept beside it. An input array is never written, so of the windows on the
    two argument arrays the run concludes that each holds what it held at entry. -/
theorem frameR (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.RDat.θ_run_region_pf (fun p => (cfgs p).toPCfg) (fun p => (cfgs p).toPCfg_adm) (rdats m) () Gen.cellOf_inj (0 : Fin 1)
    Gen.winFacts₀0 (Pipeline.OwnSemFacts.none _) (Pipeline.PreFacts.none _) emb₁ defs₀ Variants.none m ρ main
    (hbody := body_obligationR m) (hne := Gen.block_pos0) (harr := Gen.arr_whole0) (hstage := Gen.stage_whole0)
    (howed := fun _ _ => rfl)
    (G := fun _ => BI.emp) (u₀ := u₀R)
    (hu₀ := by
      rw [BI.bigSep_emp_const]
      show (BI.own (emb₁ u₀R) : sProp 𝕄) ⊢ |={Set.univ}=> iprop(BI.own (emb₁ u₀R) ∗ emp)
      iintro Hu; imodintro
      isplitl [Hu]; · iexact Hu
      iempintro)
    (V := fun c b => m ((c : Thread nD τ).loc b))
    (hmain := fun c Q => by
      simp only [main, Prog.lift, Prog.bind_op, Prog.bind_ret]
      iintro ⟨Hk, Hb⟩; iapply Hk; iexact Hb)
    (hsplit := fun c => arrays_of_arrBufs c _ _ rfl rfl rfl rfl rfl rfl)
    (hpf := fun _ k => k.elim0)
    (X := fun _ => iprop(emp)) (Y := fun _ => iprop(emp)) (Z := fun _ => iprop(emp))
    (hX := fun c => by iintro -; imodintro; isplitr <;> iempintro)
    (hin := fun _ => by iintro -; iempintro)
    (hout := fun c => by
      rw [Gen.scopedRest0_eq, Pipeline.ownSems0_none]
      iintro -; isplitr; · iempintro
      isplitr <;> iempintro)
    (QY := fun _ _ => True)
    (hY := fun c s' => by
      iintro ⟨-, -, HSI⟩; imodintro
      isplitr; · ipureintro; trivial
      iexact HSI)
    (hQ := fun s h c => by
      have h0 := (h c).1 0
      have h1 := (h c).1 1
      rw [(rdats m 0 c).ArrAt_in 0 rfl] at h0
      rw [(rdats m 0 c).ArrAt_in 1 rfl] at h1
      exact ⟨h0, h1⟩)

end Cert.Kernel.Hand

end
-- ==== Proof.lean ====
/-
  The certificate of the language-model head kernel against its reference: logits = x · Wᵀ, activations
  x : [64, 1, 1024], weight table W : [100000, 1024].

  The kernel walks the 100000 output columns in 25 steps of 4096; at a step it holds the activations and four
  consecutive 1024-row blocks of W (the block index clamped to the last block that starts inside W), and writes
  the four 64 × 1024 products side by side. Every output column `v` below 100000 is written exactly once, at step
  `v / 4096`, from W's row `v` — where the clamp is not active and the row lies inside W — as the inner product
  over the hidden axis of the activations' row with W's row `v`; the columns a last, overhanging block would add
  are cut at the array's end. The reference is one contraction over the hidden axis. At the ideal instance both
  are the same sums of products of extended reals, term for term: no algebraic law beyond reading the two
  programs at an index joins them, and the inputs' finiteness is not used.

  The three frames: each program runs to the end, faults nowhere and leaves its arguments unchanged. For the
  kernel programs this is the pipeline's launch with the weight table's share split among the four windows that
  read it; at the word level nothing is said of what the body computes.
-/
import proofs.«165080_g29180007809632_cont_9to1_400_6_alg».proof.Defs
import proofs.«165080_g29180007809632_cont_9to1_400_6_alg».proof.Proof.Gen.Kernel
import proofs.«165080_g29180007809632_cont_9to1_400_6_alg».proof.Proof.Gen.KernelIdeal
import proofs.«165080_g29180007809632_cont_9to1_400_6_alg».proof.Proof.Gen.ReferenceIdeal
import proofs.«165080_g29180007809632_cont_9to1_400_6_alg».proof.Proof.Gen.Pre_finite_inputs
import proofs.«165080_g29180007809632_cont_9to1_400_6_alg».proof.Proof.BodyValue
import proofs.«165080_g29180007809632_cont_9to1_400_6_alg».proof.Proof.IdealFinal
import proofs.«165080_g29180007809632_cont_9to1_400_6_alg».proof.Proof.RefValue
import proofs.«165080_g29180007809632_cont_9to1_400_6_alg».proof.Proof.KFrameR

noncomputable section

namespace Cert.Proof

open Idealize.ShloMosaic Idealize.ShloMosaic.TcCoe Idealize.SL.Sem

/-- The four quarters of the result's buffer, each read at an index. -/
theorem quarters : Cert.KernelIdeal.Hand.QuarterFacts :=
  ⟨Cert.KernelIdeal.Hand.outFn_apply0, Cert.KernelIdeal.Hand.outFn_apply1,
    Cert.KernelIdeal.Hand.outFn_apply2, Cert.KernelIdeal.Hand.outFn_apply3⟩

/-- The word-level kernel program's frame. -/
theorem frame_p : Cert.frame_Kernel (hKernel := Cert.Kernel.Gen.facts) (hPre_finite_inputs := Cert.Pre_finite_inputs.Gen.facts) :=
  fun m ρ _ => Cert.Kernel.Hand.frameR (F := Bits) m ρ

/-- The idealized kernel program's frame: its run with the result dropped. -/
theorem frame_pi : Cert.frame_KernelIdeal (hKernelIdeal := Cert.KernelIdeal.Gen.facts) (hPre_finite_inputs := Cert.Pre_finite_inputs.Gen.facts) :=
  fun m ρ _ =>
    (θ_run Cert.KernelIdeal.defs _ _).mono (fun _ h c => (h c).2) (Cert.KernelIdeal.Hand.run_value m ρ quarters)

/-- Run from memories that agree on the arguments, the idealized kernel ends with the logits of its arguments in
    its result array and the reference with the logits of its own: the same array. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Hand.logitsArr m c, Cert.KernelIdeal.Hand.run_value m ρ quarters, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.RefValue.ref_eq _ _

theorem claim : Cert.Claim :=
  ⟨Cert.Kernel.Gen.facts, Cert.KernelIdeal.Gen.facts, Cert.ReferenceIdeal.Gen.facts, Cert.Pre_finite_inputs.Gen.facts,
    frame_p, frame_pi, Cert.RefValue.frame_ri, trivial, algebraic⟩

end Cert.Proof

end
